-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 0#32
  let main_v44 : IVec S2x800000 32 := broadcastInDim S2x800000 ![] bcast_S_S2x800000 main_c_16
  let main_v45 : IVec S2x800000 1 := cmpi .sge main_arg1 main_v44
  let main_c_17 : IVec S_ 32 := constantI S_ 32 50000#32
  let main_v46 : IVec S2x800000 32 := broadcastInDim S2x800000 ![] bcast_S_S2x800000 main_c_17
  let main_v47 : IVec S2x800000 1 := cmpi .slt main_arg1 main_v46
  let main_v48 : IVec S2x800000 1 := andi main_v45 main_v47
  let main_c_18 : IVec S_ 1 := constantI S_ 1 1#1
  let main_v49 : IVec S_ 1 := (fun x v => Host.reduce IntOp.andi x v reducesTo_S2x800000_S_d0_1 h_S_) main_v48 main_c_18
  let main_v50 : IVec S_ 1 := andi main_v43 main_v49
  main_v50

def fn_part1 {F : FTy → Type} [FloatOps F] (main_arg1 : IVec S2x800000 32) (main_arg5 : FVec F S64 .f32) (main_arg6 : FVec F S128x128 .f32) (main_arg7 : FVec F S128 .f32) (main_arg8 : FVec F S128x64 .f32) (main_arg9 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S50000x64 .f32) (main_arg1 : IVec S2x800000 32) (main_arg2 : FVec F S128x128 .f32) (main_arg3 : FVec F S128 .f32) (main_arg4 : FVec F S128x64 .f32) (main_arg5 : FVec F S64 .f32) (main_arg6 : FVec F S128x128 .f32) (main_arg7 : FVec F S128 .f32) (main_arg8 : FVec F S128x64 .f32) (main_arg9 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S64x128 : Shape := ⟨2, ![64, 128]⟩
abbrev S1x128 : Shape := ⟨2, ![1, 128]⟩
abbrev S1x64 : Shape := ⟨2, ![1, 64]⟩
abbrev S6400x64 : Shape := ⟨2, ![6400, 64]⟩
abbrev S6400x128 : Shape := ⟨2, ![6400, 128]⟩
abbrev S5000x64 : Shape := ⟨2, ![5000, 64]⟩
abbrev S5000x128 : Shape := ⟨2, ![5000, 128]⟩

abbrev nBuf : Space → Nat
  | .hbm => 82
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S1, .i32⟩
  | .hbm, ⟨23, _⟩ => ⟨S_, .i32⟩
  | .hbm, ⟨24, _⟩ => ⟨S800000x1, .i32⟩
  | .hbm, ⟨25, _⟩ => ⟨S800000x1, .i1⟩
  | .hbm, ⟨26, _⟩ => ⟨S1x1, .i32⟩
  | .hbm, ⟨27, _⟩ => ⟨S800000x1, .i32⟩
  | .hbm, ⟨28, _⟩ => ⟨S800000x1, .i1⟩
  | .hbm, ⟨29, _⟩ => ⟨S800000x1, .i1⟩
  | .hbm, ⟨30, _⟩ => ⟨S_, .i1⟩
  | .hbm, ⟨31, _⟩ => ⟨S800000, .i1⟩
  | .hbm, ⟨32, _⟩ => ⟨S800000x64, .f32⟩
  | .hbm, ⟨33, _⟩ => ⟨S800000x64, .i1⟩
  | .hbm, ⟨34, _⟩ => ⟨S_, .f32⟩
  | .hbm, ⟨35, _⟩ => ⟨S800000x64, .f32⟩
  | .hbm, ⟨36, _⟩ => ⟨S800000x64, .f32⟩
  | .hbm, ⟨37, _⟩ => ⟨S800000x64, .bf16⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S1, .i32⟩
  | .hbm, ⟨47, _⟩ => ⟨S_, .i32⟩
  | .hbm, ⟨48, _⟩ => ⟨S800000x1, .i32⟩
  | .hbm, ⟨49, _⟩ => ⟨S800000x1, .i1⟩
  | .hbm, ⟨50, _⟩ => ⟨S1x1, .i32⟩
  | .hbm, ⟨51, _⟩ => ⟨S800000x1, .i32⟩
  | .hbm, ⟨52, _⟩ => ⟨S800000x1, .i1⟩
  | .hbm, ⟨53, _⟩ => ⟨S800000x1, .i1⟩
  | .hbm, ⟨54, _⟩ => ⟨S_, .i1⟩
  | .hbm, ⟨55, _⟩ => ⟨S800000, .i1⟩
  | .hbm, ⟨56, _⟩ => ⟨S800000x64, .f32⟩
  | .hbm, ⟨57, _⟩ => ⟨S800000x64, .i1⟩
  | .hbm, ⟨58, _⟩ => ⟨S_, .f32⟩
  | .hbm, ⟨59, _⟩ => ⟨S800000x64, .f32⟩
  | .hbm, ⟨60, _⟩ => ⟨S800000x64, .f32⟩
  | .hbm, ⟨61, _⟩ => ⟨S800000x64, .bf16⟩
  | .hbm, ⟨62, _⟩ => ⟨S64x128, .f32⟩
  | .hbm, ⟨63, _⟩ => ⟨S64x128, .bf16⟩
  | .hbm, ⟨64, _⟩ => ⟨S64x128, .f32⟩
  | .hbm, ⟨65, _⟩ => ⟨S64x128, .bf16⟩
  | .hbm, ⟨66, _⟩ => ⟨S128x64, .bf16⟩
  | .hbm, ⟨67, _⟩ => ⟨S1x128, .f32⟩
  | .hbm, ⟨68, _⟩ => ⟨S1x64, .f32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S64x128, .f32⟩
  | .hbm, ⟨75, _⟩ => ⟨S64x128, .bf16⟩
  | .hbm, ⟨76, _⟩ => ⟨S64x128, .f32⟩
  | .hbm, ⟨77, _⟩ => ⟨S64x128, .bf16⟩
  | .hbm, ⟨78, _⟩ => ⟨S128x64, .bf16⟩
  | .hbm, ⟨79, _⟩ => ⟨S1x128, .f32⟩
  | .hbm, ⟨80, _⟩ => ⟨S1x64, .f32⟩
  | .hbm, ⟨81, _⟩ => ⟨S50000x64, .f32⟩
  | .local _ .vmem, ⟨0, _⟩ => ⟨S6400x64, .bf16⟩
  | .local _ .vmem, ⟨1, _⟩ => ⟨S6400x64, .bf16⟩
  | .local _ .vmem, ⟨2, _⟩ => ⟨S6400x64, .bf16⟩
  | .local _ .vmem, ⟨3, _⟩ => ⟨S6400x64, .bf16⟩
  | .local _ .vmem, ⟨4, _⟩ => ⟨S64x128, .bf16⟩
  | .local _ .vmem, ⟨5, _⟩ => ⟨S64x128, .bf16⟩
  | .local _ .vmem, ⟨6, _⟩ => ⟨S1x128, .f32⟩
  | .local _ .vmem, ⟨7, _⟩ => ⟨S128x64, .bf16⟩
  | .local _ .vmem, ⟨8, _⟩ => ⟨S1x64, .f32⟩
  | .local _ .vmem, ⟨9, _⟩ => ⟨S6400x64, .f32⟩
  | .local _ .vmem, ⟨10, _⟩ => ⟨S6400x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x128, .bf16⟩
  | .local _ .vmem, ⟨16, _⟩ => ⟨S64x128, .bf16⟩
  | .local _ .vmem, ⟨17, _⟩ => ⟨S1x128, .f32⟩
  | .local _ .vmem, ⟨18, _⟩ => ⟨S128x64, .bf16⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_v5 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bitsLt_bf16_f32 : FTy.bits .bf16 < FTy.bits .f32
  slices_S128x128_S64x128_0_0 : S128x128.Slices ![0, 0] S64x128
  slices_S128x128_S64x128_64_0 : S128x128.Slices ![64, 0] S64x128
  shapeCasts_S128_S1x128 : S128.ShapeCasts S1x128
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x128_S5000x128 : S1x128.Broadcasts S5000x128
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S6400x64_S64x128_S6400x128_1_0_0_1_n_n_wf : DotDims.WF S6400x64 S64x128 S6400x128 [1] [0] [0] [1] [] []
  dot_S6400x128_S128x64_S6400x64_1_0_0_1_n_n_wf : DotDims.WF S6400x128 S128x64 S6400x64 [1] [0] [0] [1] [] []
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S800000x64.size a
  hwx0_0 : ∀ i : grid0.Coords, EltTy.bits .bf16 = 32 ∨ (Rect.block (s := S800000x64) S6400x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S800000x64.size a
  hwx0_1 : ∀ i : grid0.Coords, EltTy.bits .bf16 = 32 ∨ (Rect.block (s := S800000x64) S6400x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x64.size a ≤ S800000x64.size a
  hwx0_7 : ∀ i : grid0.Coords, EltTy.bits .f32 = 32 ∨ (Rect.block (s := S800000x64) S6400x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .bf16 = 32 ∨ (Rect.block (s := S64x128) S64x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .bf16 = 32 ∨ (Rect.block (s := S64x128) S64x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .bf16 = 32 ∨ (Rect.block (s := S128x64) S128x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v5) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S6400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x128 : Shape := ⟨2, ![1, 128]⟩
abbrev S1x64 : Shape := ⟨2, ![1, 64]⟩
abbrev S50000x128 : Shape := ⟨2, ![50000, 128]⟩

abbrev nBuf : Space → Nat
  | .hbm => 64
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S800000x128, .f32⟩
  | .hbm, ⟨33, _⟩ => ⟨S800000x128, .f32⟩
  | .hbm, ⟨34, _⟩ => ⟨S1x128, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S800000x128, .f32⟩
  | .hbm, ⟨39, _⟩ => ⟨S800000x128, .f32⟩
  | .hbm, ⟨40, _⟩ => ⟨S800000x64, .f32⟩
  | .hbm, ⟨41, _⟩ => ⟨S1x64, .f32⟩
  | .hbm, ⟨42, _⟩ => ⟨S800000x64, .f32⟩
  | .hbm, ⟨43, _⟩ => ⟨S800000x64, .f32⟩
  | .hbm, ⟨44, _⟩ => ⟨S_, .f32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call2_cst : Ref sig .tc := ⟨.hbm, 56, rfl⟩
abbrev main_call2_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Take.lean ====
import proofs.«415306_j68195490726191_1_alg».proof.Proof.Gen.KernelIdeal
import proofs.«415306_j68195490726191_1_alg».proof.Pre_finite_inputs
import proofs.«415306_j68195490726191_1_alg».proof.Proof.Gen.Pre_finite_inputs
import Idealize.ShloMosaic.Lib.StableHlo.Predicate
import Idealize.ShloMosaic.Lib.ReduceAll
import Idealize.ShloMosaic.Lib.ValueIdx
import Idealize.ShloMosaic.Lib.ValueLayout
import Idealize.ShloMosaic.Lib.Pipeline.Value

set_option maxRecDepth 16384

noncomputable section

namespace Cert.KernelIdeal.Take

open Idealize.ShloMosaic Idealize.ShloMosaic.ValueIdx
open Cert.KernelIdeal Cert.KernelIdeal.Gen

variable {F : FTy → Type} [FloatOps F]

/-- Row `0` of the edge list: the first end point of every edge. -/
def row0 (ei : IVec S2x800000 32) : IVec S800000 32 :=
  shapeCast S800000 (extractStridedSlice S1x800000 ![0, 0] ei slices_S2x800000_S1x800000_0_0) shapeCasts_S1x800000_S800000
/-- Row `1` of the edge list: the second end point of every edge. -/
def row1 (ei : IVec S2x800000 32) : IVec S800000 32 :=
  shapeCast S800000 (extractStridedSlice S1x800000 ![1, 0] ei slices_S2x800000_S1x800000_1_0) shapeCasts_S1x800000_S800000

/-- The start-index column a row take is given: each index, 50000 added to it when it is negative, as an
    800000 x 1 column. -/
def idxCol (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- The take's range mask: at every entry of row `e`, whether `e`'s start index lies in `[0, 49999]`. -/
def inRange (r : IVec S800000 32) : IVec S800000x64 1 :=
  broadcastInDim S800000x64 ![0] bcast_S800000_S800000x64_0
    ((fun x v => Host.reduce IntOp.andi x v reducesTo_S800000x1_S800000_d1 h_S_)
      (andi (cmpi .sge (idxCol r) (broadcastInDim S800000x1 ![] bcast_S_S800000x1 (constantI S_ 32 0#32)))
        (cmpi .sle (idxCol r) (broadcastInDim S800000x1 ![0, 1] bcast_S1x1_S800000x1_0_1
          (broadcastInDim S1x1 ![1] bcast_S1_S1x1_1 (constantI S1 32 49999#32)))))
      (constantI S_ 1 1#1))

/-- The rows of `h` the start-index column names (each start index clamped into `[0, 49999]`). -/
def rows (h : FVec F S50000x64 .f32) (r : IVec S800000 32) : FVec F S800000x64 .f32 :=
  Host.gather gather_S50000x64_S800000x1_S800000x64_1_0_n_n_0_1_164 h (idxCol r)

/-- The kernel's row take: the named rows where the start index is in range, a fill value elsewhere. -/
def take (h : FVec F S50000x64 .f32) (r : IVec S800000 32) : FVec F S800000x64 .f32 :=
  select (inRange r) (rows h r) (broadcastInDim S800000x64 ![] bcast_S_S800000x64 (constant S_ .f32 0x7FC00000#32))

/-! ## Reads of the edge list's rows -/

/-- A row of the edge list read at an edge is the edge list at that row and edge: the reshape keeps the row-major
    position (row 0 of a one-row matrix at column e is position e), and the slice adds its row offset. -/
theorem row0_apply (ei : IVec S2x800000 32) (e : Fin 800000) : row0 ei (ix1 e) = ei (ix2 0 e) := by
  unfold row0
  refine (shapeCast_apply _ shapeCasts_S1x800000_S800000 (ix1 e) (ix2 (0 : Fin 1) e) ?_).trans ?_
  · rw [Shape.rowMajor_val_two, Shape.rowMajor_val_one]
    show 0 * 800000 + e.val = e.val
    omega
  · exact slice2_axis0_apply 0 ei slices_S2x800000_S1x800000_0_0 (0 : Fin 1) e (0 : Fin 2) rfl
theorem row1_apply (ei : IVec S2x800000 32) (e : Fin 800000) : row1 ei (ix1 e) = ei (ix2 1 e) := by
  unfold row1
  refine (shapeCast_apply _ shapeCasts_S1x800000_S800000 (ix1 e) (ix2 (0 : Fin 1) e) ?_).trans ?_
  · rw [Shape.rowMajor_val_two, Shape.rowMajor_val_one]
    show 0 * 800000 + e.val = e.val
    omega
  · exact slice2_axis0_apply 1 ei slices_S2x800000_S1x800000_1_0 (0 : Fin 1) e (1 : Fin 2) rfl

/-! ## The range mask of node indices -/

/-- The signed readings of the three words the take compares with. -/
theorem toInt_zero : (0#32 : BitVec 32).toInt = 0 := by decide
theorem toInt_49999 : (49999#32 : BitVec 32).toInt = 49999 := by decide
theorem toInt_50000 : (50000#32 : BitVec 32).toInt = 50000 := by decide

/-- A non-negative index is not wrapped: "index < 0" is not 1, so the select keeps its second branch. -/
theorem wrap_word (x : BitVec 32) (h0 : 0 ≤ x.toInt) :
    Scalar.select (IntOp.cmpi .slt x 0#32) (IntOp.addi x 50000#32) x = x := by
  have hc : ¬ IntOp.cmpi .slt x 0#32 = 1#1 := by
    rw [IntOp.cmpi_slt, toInt_zero]; omega
  exact if_neg hc

/-- Both range tests of an index in [0, 50000) are 1, and so is their conjunction. -/
theorem range_word (x : BitVec 32) (h0 : 0 ≤ x.toInt) (h1 : x.toInt < 50000) :
    IntOp.andi (IntOp.cmpi .sge x 0#32) (IntOp.cmpi .sle x 49999#32) = 1#1 := by
  rw [IntOp.andi_eq_one, IntOp.cmpi_sge, IntOp.cmpi_sle, toInt_zero, toInt_49999]
  exact ⟨h0, by omega⟩

/-- A left fold by "and" that starts at 1 and meets only 1s is 1. -/
theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi (1#1) (1#1) = 1#1 := by decide
    rw [List.foldl_cons, hf a, e]
    exact foldl_andi_one f hf l

section NodeIndices
variable (r : IVec S800000 32) (hr : ∀ e : Fin 800000, 0 ≤ (r (ix1 e)).toInt ∧ (r (ix1 e)).toInt < 50000)
include hr

/-- The wrap at an entry: a node index is not negative, so the select keeps the index. -/
theorem wrap_apply (k : S800000.Idx) :
    select (cmpi .slt r (broadcastInDim S800000 ![] bcast_S_S800000 (constantI S_ 32 0#32)))
      (addi r (broadcastInDim S800000 ![] bcast_S_S800000 (constantI S_ 32 50000#32))) r k = r k := by
  rw [eq_ix1 k]
  exact wrap_word _ (hr (k 0)).1

/-- Every entry of the start-index column is an entry of the index vector itself (a broadcast reads its operand). -/
theorem idxCol_eq (i : S800000x1.Idx) : ∃ k : S800000.Idx, idxCol r i = r k := by
  unfold idxCol
  exact ⟨_, wrap_apply r hr _⟩

/-- So every entry of the start-index column is a node index. -/
theorem idxCol_mem (i : S800000x1.Idx) : 0 ≤ (idxCol r i).toInt ∧ (idxCol r i).toInt < 50000 := by
  obtain ⟨k, hk⟩ := idxCol_eq r hr i
  rw [hk, eq_ix1 k]
  exact hr (k 0)

/-- The two range tests and their conjunction are 1 at every entry of the column (the compared constants are
    broadcast scalars: they read 0 and 49999 everywhere). -/
theorem rangeBits_one (i : S800000x1.Idx) :
    andi (cmpi .sge (idxCol r) (broadcastInDim S800000x1 ![] bcast_S_S800000x1 (constantI S_ 32 0#32)))
      (cmpi .sle (idxCol r) (broadcastInDim S800000x1 ![0, 1] bcast_S1x1_S800000x1_0_1
        (broadcastInDim S1x1 ![1] bcast_S1_S1x1_1 (constantI S1 32 49999#32)))) i = 1#1 := by
  obtain ⟨h0, h1⟩ := idxCol_mem r hr i
  exact range_word (idxCol r i) h0 h1

/-- The range mask is all ones: the reduce by "and" over the column's one entry folds ones from the initial 1, and the
    broadcast along the 64 columns reads that 1. -/
theorem inRange_one (i : S800000x64.Idx) : inRange r i = 1#1 := by
  unfold inRange broadcastInDim
  dsimp only
  rw [Host.reduce_eq_foldl]
  exact foldl_andi_one _ (rangeBits_one r hr) _

end NodeIndices

/-- With every index in [0, 50000) the range mask is all ones, so the take is the named rows: a select on the bit 1
    is its first branch. -/
theorem take_eq_rows (h : FVec F S50000x64 .f32) (r : IVec S800000 32)
    (hr : ∀ e : Fin 800000, 0 ≤ (r (ix1 e)).toInt ∧ (r (ix1 e)).toInt < 50000) : take h r = rows h r := by
  funext i
  unfold take
  rw [select_apply, inRange_one r hr i]
  exact select_one _ _

/-! ## The precondition's last conjunct -/

/-- THE PRECONDITION'S LAST CONJUNCT, DECODED: where the printed precondition is all ones, every entry of the edge
    list is a node index, 0 ≤ · < 50000. The printed function ends in the "and" of the nine finiteness tests with
    the reduce-and, over both axes, of (edge list ≥ 0) and (edge list < 50000): that last operand is 1, a reduce-and
    into the one scalar index that is 1 met a 1 at every entry, and a signed comparison that is 1 orders the signed
    readings. -/
theorem index_range
    (a0 : FVec Ideal Cert.Pre_finite_inputs.S50000x64 .f32) (a1 : IVec Cert.Pre_finite_inputs.S2x800000 32)
    (a2 : FVec Ideal Cert.Pre_finite_inputs.S128x128 .f32) (a3 : FVec Ideal Cert.Pre_finite_inputs.S128 .f32)
    (a4 : FVec Ideal Cert.Pre_finite_inputs.S128x64 .f32) (a5 : FVec Ideal Cert.Pre_finite_inputs.S64 .f32)
    (a6 : FVec Ideal Cert.Pre_finite_inputs.S128x128 .f32) (a7 : FVec Ideal Cert.Pre_finite_inputs.S128 .f32)
    (a8 : FVec Ideal Cert.Pre_finite_inputs.S128x64 .f32) (a9 : FVec Ideal Cert.Pre_finite_inputs.S64 .f32)
    (hpre : Cert.Pre_finite_inputs.fn (F := Ideal) a0 a1 a2 a3 a4 a5 a6 a7 a8 a9 = fun _ => 1#1)
    (i : Cert.Pre_finite_inputs.S2x800000.Idx) : 0 ≤ (a1 i).toInt ∧ (a1 i).toInt < 50000 := by
  haveI : Subsingleton Cert.Pre_finite_inputs.S_.Idx := ⟨fun a b => funext fun d => d.elim0⟩
  have e := congrFun hpre ix0
  dsimp only [Cert.Pre_finite_inputs.fn, Cert.Pre_finite_inputs.fn_part1, Cert.Pre_finite_inputs.fn_part2] at e
  have eall := (IntOp.andi_eq_one.1 e).2
  have eb := Host.reduce_andi_all _ _ _ _ _ eall i
  obtain ⟨hge, hlt⟩ := IntOp.andi_eq_one.1 eb
  have hge' : (0#32 : BitVec 32).toInt ≤ (a1 i).toInt := IntOp.cmpi_sge.1 hge
  have hlt' : (a1 i).toInt < (50000#32 : BitVec 32).toInt := IntOp.cmpi_slt.1 hlt
  rw [toInt_zero] at hge'
  rw [toInt_50000] at hlt'
  exact ⟨hge', hlt'⟩

end Cert.KernelIdeal.Take

end
-- ==== Proof.Spec.lean ====
/-
  The mathematics of one message-passing layer, stated once over plain index types.

  A node feature array `h` (50000 rows of 64) and an edge list (800000 pairs) give, per edge, the two end points'
  rows; a two-layer perceptron with a rectifier after each layer turns each pair of rows into a message of 64 numbers;
  the messages are summed into their first end point's row; a second two-layer perceptron (rectifier after the first
  layer only) of each node's own row and its summed messages is added to the node's row.

  Both perceptrons take the JOIN of two rows of 64 as their input of 128. The product of the joined row with a
  128 x 128 matrix is the product of the first row with the matrix's upper 64 rows plus the product of the second row
  with its lower 64 rows: a sum over 128 indices split at 64. That split is the one algebraic law of this certificate;
  it is a regrouping of a finite sum in a commutative monoid, so it holds on the extended reals without any
  finiteness assumption.
-/
import Idealize.ShloMosaic.Lib.ValueIdx
import Idealize.ShloMosaic.PureOps.Ideal
import Mathlib.Algebra.BigOperators.Fin

noncomputable section

open scoped BigOperators

namespace Cert.Spec

open Idealize.ShloMosaic Idealize.ShloMosaic.ValueIdx

/-- A rank-2 array of extended reals. -/
abbrev Arr (r c : Nat) : Type := (⟨2, ![r, c]⟩ : Shape).Idx → EReal
/-- A rank-1 array of extended reals. -/
abbrev Vec1 (n : Nat) : Type := (⟨1, ![n]⟩ : Shape).Idx → EReal

/-- One output entry `j` of a two-layer perceptron whose first layer takes two rows `a`, `b` of 64 through two
    64 x 128 matrices, adds a bias and rectifies, and whose second layer is a 128 x 64 matrix and a bias. -/
def mlp (a b : Fin 64 → EReal) (Wa Wb : Fin 64 → Fin 128 → EReal) (b1 : Fin 128 → EReal)
    (W2 : Fin 128 → Fin 64 → EReal) (b2 : Fin 64 → EReal) (j : Fin 64) : EReal :=
  (∑ k : Fin 128, max ((∑ d : Fin 64, a d * Wa d k) + (∑ d : Fin 64, b d * Wb d k) + b1 k) 0 * W2 k j) + b2 j

/-- The same perceptron fed the joined row of 128 through one 128 x 128 matrix. -/
def mlpJoined (x : Fin 128 → EReal) (W : Fin 128 → Fin 128 → EReal) (b1 : Fin 128 → EReal)
    (W2 : Fin 128 → Fin 64 → EReal) (b2 : Fin 64 → EReal) (j : Fin 64) : EReal :=
  (∑ k : Fin 128, max ((∑ d : Fin 128, x d * W d k) + b1 k) 0 * W2 k j) + b2 j

/-- The upper half of 128 indices. -/
abbrev lo (d : Fin 64) : Fin 128 := ⟨d.val, by have := d.isLt; omega⟩
/-- The lower half of 128 indices. -/
abbrev hi (d : Fin 64) : Fin 128 := ⟨64 + d.val, by have := d.isLt; omega⟩

/-- A sum over 128 indices is the sum over the first 64 plus the sum over the last 64. -/
theorem sum_split (f : Fin 128 → EReal) : ∑ d : Fin 128, f d = (∑ d : Fin 64, f (lo d)) + ∑ d : Fin 64, f (hi d) :=
  Fin.sum_univ_add (a := 64) (b := 64) f

/-- The joined perceptron is the two-row one, with the matrix cut into its upper and lower 64 rows. -/
theorem mlpJoined_eq (x : Fin 128 → EReal) (W : Fin 128 → Fin 128 → EReal) (b1 : Fin 128 → EReal)
    (W2 : Fin 128 → Fin 64 → EReal) (b2 : Fin 64 → EReal) (j : Fin 64) :
    mlpJoined x W b1 W2 b2 j
      = mlp (fun d => x (lo d)) (fun d => x (hi d)) (fun d k => W (lo d) k) (fun d k => W (hi d) k) b1 W2 b2 j := by
  unfold mlpJoined mlp
  simp only [sum_split (fun d => x d * W d _)]

/-! ## The two perceptrons over arrays, with the operands as the kernel's windows hold them -/

/-- The edge perceptron's output array from the two gathered row arrays and the kernel's operands: the first-layer
    matrix already cut in two 64 x 128 halves, the biases as rows of a 1 x n array. A rectifier closes it. -/
def edgeOut (hr hc : Arr 800000 64) (w1r w1c : Arr 64 128) (b1 : Arr 1 128) (w2 : Arr 128 64) (b2 : Arr 1 64) :
    Arr 800000 64 := fun i =>
  max (mlp (fun d => hr (ix2 (i 0) d)) (fun d => hc (ix2 (i 0) d)) (fun d k => w1r (ix2 d k)) (fun d k => w1c (ix2 d k))
    (fun k => b1 (ix2 0 k)) (fun k j => w2 (ix2 k j)) (fun j => b2 (ix2 0 j)) (i 1)) 0

/-- The node perceptron's output array from the node rows `h` and the summed messages `mi`: the perceptron's value
    added to the node's own entry. -/
def nodeOut (h mi : Arr 50000 64) (w1h w1m : Arr 64 128) (b1 : Arr 1 128) (w2 : Arr 128 64) (b2 : Arr 1 64) :
    Arr 50000 64 := fun i =>
  h i + mlp (fun d => h (ix2 (i 0) d)) (fun d => mi (ix2 (i 0) d)) (fun d k => w1h (ix2 d k)) (fun d k => w1m (ix2 d k))
    (fun k => b1 (ix2 0 k)) (fun k j => w2 (ix2 k j)) (fun j => b2 (ix2 0 j)) (i 1)

/-! ## The same two arrays with the operands as the layer's parameters: whole matrices, bias vectors -/

/-- The edge perceptron's output from the layer's own parameters: the 128 x 128 first matrix whole, its upper 64 rows
    meeting the first end point's row and its lower 64 the second's; the biases as vectors. -/
def edgeRef (hr hc : Arr 800000 64) (W1 : Arr 128 128) (b1 : Vec1 128) (W2 : Arr 128 64) (b2 : Vec1 64) :
    Arr 800000 64 := fun i =>
  max (mlp (fun d => hr (ix2 (i 0) d)) (fun d => hc (ix2 (i 0) d)) (fun d k => W1 (ix2 (lo d) k)) (fun d k => W1 (ix2 (hi d) k))
    (fun k => b1 (ix1 k)) (fun k j => W2 (ix2 k j)) (fun j => b2 (ix1 j)) (i 1)) 0

/-- The node perceptron's output from the layer's own parameters. -/
def nodeRef (h mi : Arr 50000 64) (W1 : Arr 128 128) (b1 : Vec1 128) (W2 : Arr 128 64) (b2 : Vec1 64) :
    Arr 50000 64 := fun i =>
  h i + mlp (fun d => h (ix2 (i 0) d)) (fun d => mi (ix2 (i 0) d)) (fun d k => W1 (ix2 (lo d) k)) (fun d k => W1 (ix2 (hi d) k))
    (fun k => b1 (ix1 k)) (fun k j => W2 (ix2 k j)) (fun j => b2 (ix1 j)) (i 1)

end Cert.Spec

end
-- ==== Proof.EdgeRegion.lean ====
import proofs.«415306_j68195490726191_1_alg».proof.Proof.Gen.KernelIdeal.Frame
import proofs.«415306_j68195490726191_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeRegion

open Idealize.ShloMosaic Idealize.ShloMosaic.TcCoe Idealize.SL.Sem Idealize.ShloMosaic.ValueIdx
open Cert.KernelIdeal Cert.KernelIdeal.Gen

-- the buffer contents the region is entered with: any
variable (V : (c : Dev nD) → (b : Ref sig .tc) → Buf (Elt Ideal) ((c : Thread nD τ).loc b))

/-! ## The body's matrix products read at an index

Each product contracts the left operand's column axis with the right operand's row axis; into a zero accumulator its
entry at row `p`, column `j` is the sum over the contraction coordinate of the operands' products. -/

theorem lhs_first_0 (i : S6400x128.Idx) (q : dot_S6400x64_S64x128_S6400x128_1_0_0_1_n_n.contr.Idx) :
    (dot_S6400x64_S64x128_S6400x128_1_0_0_1_n_n.lhsIdx i q 0).val = (i 0).val := by
  unfold DotDims.lhsIdx
  rw [dif_neg (show ¬(0 : Fin S6400x64.rank) ∈ dot_S6400x64_S64x128_S6400x128_1_0_0_1_n_n.lhsBatch by decide), dif_pos (show (0 : Fin S6400x64.rank) ∈ dot_S6400x64_S64x128_S6400x128_1_0_0_1_n_n.lhsNonContracting by decide)]
  rfl
theorem lhs_first_1 (i : S6400x128.Idx) (q : dot_S6400x64_S64x128_S6400x128_1_0_0_1_n_n.contr.Idx) :
    (dot_S6400x64_S64x128_S6400x128_1_0_0_1_n_n.lhsIdx i q 1).val = (q ⟨0, by decide⟩).val :=
  dot_S6400x64_S64x128_S6400x128_1_0_0_1_n_n.lhsIdx_val_of_single rfl i q
theorem rhs_first_0 (i : S6400x128.Idx) (q : dot_S6400x64_S64x128_S6400x128_1_0_0_1_n_n.contr.Idx) :
    (dot_S6400x64_S64x128_S6400x128_1_0_0_1_n_n.rhsIdx i q 0).val = (q ⟨0, by decide⟩).val :=
  dot_S6400x64_S64x128_S6400x128_1_0_0_1_n_n.rhsIdx_val_of_single rfl i q
theorem rhs_first_1 (i : S6400x128.Idx) (q : dot_S6400x64_S64x128_S6400x128_1_0_0_1_n_n.contr.Idx) :
    (dot_S6400x64_S64x128_S6400x128_1_0_0_1_n_n.rhsIdx i q 1).val = (i 1).val := by
  unfold DotDims.rhsIdx
  rw [dif_neg (show ¬(1 : Fin S64x128.rank) ∈ dot_S6400x64_S64x128_S6400x128_1_0_0_1_n_n.rhsBatch by decide), dif_pos (show (1 : Fin S64x128.rank) ∈ dot_S6400x64_S64x128_S6400x128_1_0_0_1_n_n.rhsNonContracting by decide)]
  rfl

/-- A first-layer product: a block of rows of 64 against a 64 x 128 matrix. -/
theorem matmul_first_apply (x : FVec Ideal S6400x64 .bf16) (w : FVec Ideal S64x128 .bf16) (p : Fin 6400) (j : Fin 128) :
    matmul dot_S6400x64_S64x128_S6400x128_1_0_0_1_n_n none x w (constant (F := Ideal) S6400x128 .f32 0x00000000#32) (ix2 p j)
      = ∑ d : Fin 64, x (ix2 p d) * w (ix2 d j) := by
  simp only [matmul]
  rw [Ideal.matmul_constant_zero_apply, ← Equiv.sum_comp (contrEquiv1 dot_S6400x64_S64x128_S6400x128_1_0_0_1_n_n 64 rfl rfl).symm]
  refine Finset.sum_congr rfl fun d _ => ?_
  have hk := contrEquiv1_symm_val dot_S6400x64_S64x128_S6400x128_1_0_0_1_n_n 64 rfl rfl d
  have el : dot_S6400x64_S64x128_S6400x128_1_0_0_1_n_n.lhsIdx (ix2 p j) ((contrEquiv1 dot_S6400x64_S64x128_S6400x128_1_0_0_1_n_n 64 rfl rfl).symm d) = ix2 p d := funext fun a => Fin.ext (by
    match a with
    | ⟨0, _⟩ => exact lhs_first_0 _ _
    | ⟨1, _⟩ => exact (lhs_first_1 _ _).trans hk)
  have er : dot_S6400x64_S64x128_S6400x128_1_0_0_1_n_n.rhsIdx (ix2 p j) ((contrEquiv1 dot_S6400x64_S64x128_S6400x128_1_0_0_1_n_n 64 rfl rfl).symm d) = ix2 d j := funext fun a => Fin.ext (by
    match a with
    | ⟨0, _⟩ => exact (rhs_first_0 _ _).trans hk
    | ⟨1, _⟩ => exact rhs_first_1 _ _)
  rw [el, er]

theorem lhs_second_0 (i : S6400x64.Idx) (q : dot_S6400x128_S128x64_S6400x64_1_0_0_1_n_n.contr.Idx) :
    (dot_S6400x128_S128x64_S6400x64_1_0_0_1_n_n.lhsIdx i q 0).val = (i 0).val := by
  unfold DotDims.lhsIdx
  rw [dif_neg (show ¬(0 : Fin S6400x128.rank) ∈ dot_S6400x128_S128x64_S6400x64_1_0_0_1_n_n.lhsBatch by decide), dif_pos (show (0 : Fin S6400x128.rank) ∈ dot_S6400x128_S128x64_S6400x64_1_0_0_1_n_n.lhsNonContracting by decide)]
  rfl
theorem lhs_second_1 (i : S6400x64.Idx) (q : dot_S6400x128_S128x64_S6400x64_1_0_0_1_n_n.contr.Idx) :
    (dot_S6400x128_S128x64_S6400x64_1_0_0_1_n_n.lhsIdx i q 1).val = (q ⟨0, by decide⟩).val :=
  dot_S6400x128_S128x64_S6400x64_1_0_0_1_n_n.lhsIdx_val_of_single rfl i q
theorem rhs_second_0 (i : S6400x64.Idx) (q : dot_S6400x128_S128x64_S6400x64_1_0_0_1_n_n.contr.Idx) :
    (dot_S6400x128_S128x64_S6400x64_1_0_0_1_n_n.rhsIdx i q 0).val = (q ⟨0, by decide⟩).val :=
  dot_S6400x128_S128x64_S6400x64_1_0_0_1_n_n.rhsIdx_val_of_single rfl i q
theorem rhs_second_1 (i : S6400x64.Idx) (q : dot_S6400x128_S128x64_S6400x64_1_0_0_1_n_n.contr.Idx) :
    (dot_S6400x128_S128x64_S6400x64_1_0_0_1_n_n.rhsIdx i q 1).val = (i 1).val := by
  unfold DotDims.rhsIdx
  rw [dif_neg (show ¬(1 : Fin S128x64.rank) ∈ dot_S6400x128_S128x64_S6400x64_1_0_0_1_n_n.rhsBatch by decide), dif_pos (show (1 : Fin S128x64.rank) ∈ dot_S6400x128_S128x64_S6400x64_1_0_0_1_n_n.rhsNonContracting by decide)]
  rfl

/-- The second-layer product: the block of hidden rows of 128 against the 128 x 64 matrix. -/
theorem matmul_second_apply (x : FVec Ideal S6400x128 .bf16) (w : FVec Ideal S128x64 .bf16) (p : Fin 6400) (j : Fin 64) :
    matmul dot_S6400x128_S128x64_S6400x64_1_0_0_1_n_n none x w (constant (F := Ideal) S6400x64 .f32 0x00000000#32) (ix2 p j)
      = ∑ d : Fin 128, x (ix2 p d) * w (ix2 d j) := by
  simp only [matmul]
  rw [Ideal.matmul_constant_zero_apply, ← Equiv.sum_comp (contrEquiv1 dot_S6400x128_S128x64_S6400x64_1_0_0_1_n_n 128 rfl rfl).symm]
  refine Finset.sum_congr rfl fun d _ => ?_
  have hk := contrEquiv1_symm_val dot_S6400x128_S128x64_S6400x64_1_0_0_1_n_n 128 rfl rfl d
  have el : dot_S6400x128_S128x64_S6400x64_1_0_0_1_n_n.lhsIdx (ix2 p j) ((contrEquiv1 dot_S6400x128_S128x64_S6400x64_1_0_0_1_n_n 128 rfl rfl).symm d) = ix2 p d := funext fun a => Fin.ext (by
    match a with
    | ⟨0, _⟩ => exact lhs_second_0 _ _
    | ⟨1, _⟩ => exact (lhs_second_1 _ _).trans hk)
  have er : dot_S6400x128_S128x64_S6400x64_1_0_0_1_n_n.rhsIdx (ix2 p j) ((contrEquiv1 dot_S6400x128_S128x64_S6400x64_1_0_0_1_n_n 128 rfl rfl).symm d) = ix2 d j := funext fun a => Fin.ext (by
    match a with
    | ⟨0, _⟩ => exact (rhs_second_0 _ _).trans hk
    | ⟨1, _⟩ => exact rhs_second_1 _ _)
  rw [el, er]

/-! ## The bias rows spread over the block's rows -/

/-- The first bias, a 1 x 128 row spread over 6400 rows, read at row `p`, column `k`, is the row's entry `k`. -/
theorem bias_first_apply (b : FVec Ideal S1x128 .f32) (p : Fin 6400) (k : Fin 128) :
    broadcastTo S6400x128 b broadcasts_S1x128_S6400x128 (ix2 p k) = b (ix2 0 k) :=
  broadcastTo_apply b broadcasts_S1x128_S6400x128 (ix2 p k) (ix2 0 k) (fun a => match a with
    | ⟨0, _⟩ => by show (0 : Nat) = if (1 : Nat) = 1 then 0 else p.val; rw [if_pos rfl]
    | ⟨1, _⟩ => by show k.val = if (128 : Nat) = 1 then 0 else k.val; rw [if_neg (by decide)])

/-- The second bias, a 1 x 64 row spread over 6400 rows, read at row `p`, column `j`, is the row's entry `j`. -/
theorem bias_second_apply (b : FVec Ideal S1x64 .f32) (p : Fin 6400) (j : Fin 64) :
    broadcastTo S6400x64 b broadcasts_S1x64_S6400x64 (ix2 p j) = b (ix2 0 j) :=
  broadcastTo_apply b broadcasts_S1x64_S6400x64 (ix2 p j) (ix2 0 j) (fun a => match a with
    | ⟨0, _⟩ => by show (0 : Nat) = if (1 : Nat) = 1 then 0 else p.val; rw [if_pos rfl]
    | ⟨1, _⟩ => by show j.val = if (64 : Nat) = 1 then 0 else j.val; rw [if_neg (by decide)])

/-! ## The body's stored value at an index -/

/-- The rectifiers' threshold, the word of all zero bits read as a number, is zero. -/
theorem zero_word : (Scalar.ofBits (F := Ideal) .f32 0x00000000#32 : Ideal .f32) = 0 := by
  show Ideal.ofBits .f32 0x00000000#32 = 0
  exact Ideal.ofBits_zero_f32

/-- THE BODY'S STORED VALUE at row `p`, column `j` of its block: the edge perceptron of row `p` of the two row blocks
    through the two first-layer matrices, the first bias, the second-layer matrix and the second bias, rectified. The
    casts to the same shape and the change of format are the identity; each product into a zero accumulator is the
    sum over its contraction coordinate; each bias row is read at its column. -/
theorem payload_apply (x0 x1 : Vec Ideal S6400x64 .bf16) (x2 x3 : Vec Ideal S64x128 .bf16) (x4 : Vec Ideal S1x128 .f32)
    (x5 : Vec Ideal S128x64 .bf16) (x6 : Vec Ideal S1x64 .f32) (p : Fin 6400) (j : Fin 64) :
    k0_pay1 x0 x1 x2 x3 x4 x5 x6 (ix2 p j)
      = max (Cert.Spec.mlp (fun d => x0 (ix2 p d)) (fun d => x1 (ix2 p d)) (fun d k => x2 (ix2 d k)) (fun d k => x3 (ix2 d k))
          (fun k => x4 (ix2 0 k)) (fun k j => x5 (ix2 k j)) (fun j => x6 (ix2 0 j)) j) 0 := by
  unfold k0_pay1 Cert.Spec.mlp
  simp only [shapeCast_self]
  rw [maximumf_apply, addf_apply, matmul_second_apply, bias_second_apply, broadcast_apply, zero_word]
  simp only [truncf_apply, maximumf_apply, addf_apply, matmul_first_apply, bias_first_apply, broadcast_apply, zero_word]

/-! ## From the blocks to the array

Point `t` of the 125 takes rows `6400 t … 6400 t + 6399` of the two row arrays and of the output, all 64 columns; the
five parameter arrays are taken whole at every point. So what point `t` writes back is block `t` of ONE function of
the operand arrays, the edge perceptron row by row, and the 125 blocks cover the output's 800000 rows. -/

theorem zero_offsets : (![0, 0] : Fin 2 → Nat) = fun _ => 0 := funext fun a => by fin_cases a <;> rfl

/-- The printed index maps, decided over the grid: the row windows and the output window sit at block `(t, 0)`, the
    parameter windows at block `(0, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The first row window's block at point `t`, row `p`, is row `6400 t + p` of its array. -/
theorem rows_first (c : Dev nD) (t : Fin cfg0.N) (p : Fin 6400) (r : Fin 800000) (hr : r.val = 6400 * t.val + p.val) (d : Fin 64) :
    iblk0 V c 0 t (ix2 p d) = V c main_v5 (ix2 r d) := by
  obtain ⟨e0, e1, -⟩ := block_index t
  unfold iblk0
  rw [View.read_apply]
  show V c main_v5 _ = V c main_v5 _
  congr 1
  funext a
  apply Fin.ext
  match a with
  | ⟨0, _⟩ => show win0_0.index t (0 : Fin 2) * 6400 + 1 * p.val = r.val; rw [e0, hr]; omega
  | ⟨1, _⟩ => show win0_0.index t (1 : Fin 2) * 64 + 1 * d.val = d.val; rw [e1]; omega

/-- The second row window's likewise. -/
theorem rows_second (c : Dev nD) (t : Fin cfg0.N) (p : Fin 6400) (r : Fin 800000) (hr : r.val = 6400 * t.val + p.val) (d : Fin 64) :
    iblk0 V c 1 t (ix2 p d) = V c main_v7 (ix2 r d) := by
  obtain ⟨-, -, e0, e1, -⟩ := block_index t
  unfold iblk0
  rw [View.read_apply]
  show V c main_v7 _ = V c main_v7 _
  congr 1
  funext a
  apply Fin.ext
  match a with
  | ⟨0, _⟩ => show win0_1.index t (0 : Fin 2) * 6400 + 1 * p.val = r.val; rw [e0, hr]; omega
  | ⟨1, _⟩ => show win0_1.index t (1 : Fin 2) * 64 + 1 * d.val = d.val; rw [e1]; omega

/-- The parameter windows hold their whole arrays at every point: the first-layer matrix's upper half, -/
theorem first_matrix_upper (c : Dev nD) (t : Fin cfg0.N) (a : Fin 64) (b : Fin 128) :
    iblk0 V c 2 t (ix2 a b) = V c main_v9 (ix2 a b) := by
  obtain ⟨-, -, -, -, e0, e1, -⟩ := block_index t
  unfold iblk0
  rw [View.read_apply]
  show V c main_v9 _ = V c main_v9 _
  congr 1
  funext x
  apply Fin.ext
  match x with
  | ⟨0, _⟩ => show win0_2.index t (0 : Fin 2) * 64 + 1 * a.val = a.val; rw [e0]; omega
  | ⟨1, _⟩ => show win0_2.index t (1 : Fin 2) * 128 + 1 * b.val = b.val; rw [e1]; omega

/-- its lower half, -/
theorem first_matrix_lower (c : Dev nD) (t : Fin cfg0.N) (a : Fin 64) (b : Fin 128) :
    iblk0 V c 3 t (ix2 a b) = V c main_v11 (ix2 a b) := by
  obtain ⟨-, -, -, -, -, -, e0, e1, -⟩ := block_index t
  unfold iblk0
  rw [View.read_apply]
  show V c main_v11 _ = V c main_v11 _
  congr 1
  funext x
  apply Fin.ext
  match x with
  | ⟨0, _⟩ => show win0_3.index t (0 : Fin 2) * 64 + 1 * a.val = a.val; rw [e0]; omega
  | ⟨1, _⟩ => show win0_3.index t (1 : Fin 2) * 128 + 1 * b.val = b.val; rw [e1]; omega

/-- the first bias row, -/
theorem first_bias (c : Dev nD) (t : Fin cfg0.N) (a : Fin 1) (b : Fin 128) :
    iblk0 V c 4 t (ix2 a b) = V c main_v13 (ix2 a b) := by
  obtain ⟨-, -, -, -, -, -, -, -, e0, e1, -⟩ := block_index t
  unfold iblk0
  rw [View.read_apply]
  show V c main_v13 _ = V c main_v13 _
  congr 1
  funext x
  apply Fin.ext
  match x with
  | ⟨0, _⟩ => show win0_4.index t (0 : Fin 2) * 1 + 1 * a.val = a.val; rw [e0]; omega
  | ⟨1, _⟩ => show win0_4.index t (1 : Fin 2) * 128 + 1 * b.val = b.val; rw [e1]; omega

/-- the second-layer matrix, -/
theorem second_matrix (c : Dev nD) (t : Fin cfg0.N) (a : Fin 128) (b : Fin 64) :
    iblk0 V c 5 t (ix2 a b) = V c main_v12 (ix2 a b) := by
  obtain ⟨-, -, -, -, -, -, -, -, -, -, e0, e1, -⟩ := block_index t
  unfold iblk0
  rw [View.read_apply]
  show V c main_v12 _ = V c main_v12 _
  congr 1
  funext x
  apply Fin.ext
  match x with
  | ⟨0, _⟩ => show win0_5.index t (0 : Fin 2) * 128 + 1 * a.val = a.val; rw [e0]; omega
  | ⟨1, _⟩ => show win0_5.index t (1 : Fin 2) * 64 + 1 * b.val = b.val; rw [e1]; omega

/-- the second bias row. -/
theorem second_bias (c : Dev nD) (t : Fin cfg0.N) (a : Fin 1) (b : Fin 64) :
    iblk0 V c 6 t (ix2 a b) = V c main_v14 (ix2 a b) := by
  obtain ⟨-, -, -, -, -, -, -, -, -, -, -, -, e0, e1, -⟩ := block_index t
  unfold iblk0
  rw [View.read_apply]
  show V c main_v14 _ = V c main_v14 _
  congr 1
  funext x
  apply Fin.ext
  match x with
  | ⟨0, _⟩ => show win0_6.index t (0 : Fin 2) * 1 + 1 * a.val = a.val; rw [e0]; omega
  | ⟨1, _⟩ => show win0_6.index t (1 : Fin 2) * 64 + 1 * b.val = b.val; rw [e1]; omega

/-- The edge perceptron's array at row `r`, column `j`. -/
theorem edgeOut_apply (hr hc : Cert.Spec.Arr 800000 64) (w1r w1c : Cert.Spec.Arr 64 128) (b1 : Cert.Spec.Arr 1 128)
    (w2 : Cert.Spec.Arr 128 64) (b2 : Cert.Spec.Arr 1 64) (r : Fin 800000) (j : Fin 64) :
    Cert.Spec.edgeOut hr hc w1r w1c b1 w2 b2 (ix2 r j)
      = max (Cert.Spec.mlp (fun d => hr (ix2 r d)) (fun d => hc (ix2 r d)) (fun d k => w1r (ix2 d k)) (fun d k => w1c (ix2 d k))
          (fun k => b1 (ix2 0 k)) (fun k j => w2 (ix2 k j)) (fun j => b2 (ix2 0 j)) j) 0 := rfl

/-- WHAT POINT `t` WRITES BACK is block `t` of the edge perceptron's array of the operand arrays as the region finds
    them: the body's one store covers its buffer, its loads read whole buffers, and each loaded block is the rows of
    its array that the output's block names. -/
theorem flushed_eq (c : Dev nD) (t : Fin cfg0.N) :
    (dat0 (F := Ideal) V c).flushed 7 t
      = ((cfg0.win 7).blk t).view.read (Elt Ideal)
          (Cert.Spec.edgeOut (V c main_v5) (V c main_v7) (V c main_v9) (V c main_v11) (V c main_v13) (V c main_v12) (V c main_v14)) := by
  show (cfg0.win 7).cut (grid0.coords t) ((dat0 (F := Ideal) V c).after 7 t) = _
  rw [after0_7]
  unfold out0_7
  rw [View.canon_unit_zero zero_offsets]
  simp only [View.ld_unit_zero (S := S6400x64) zero_offsets, View.ld_unit_zero (S := S64x128) zero_offsets,
    View.ld_unit_zero (S := S1x128) zero_offsets, View.ld_unit_zero (S := S128x64) zero_offsets,
    View.ld_unit_zero (S := S1x64) zero_offsets]
  funext y
  obtain ⟨p, j, rfl⟩ : ∃ (p : Fin 6400) (j : Fin 64), y = ix2 p j := ⟨y 0, y 1, eq_ix2 y⟩
  obtain ⟨-, -, -, -, -, -, -, -, -, -, -, -, -, -, e0, e1⟩ := block_index t
  have hN : cfg0.N = 125 := N_0
  obtain ⟨r, hr⟩ : ∃ r : Fin 800000, r.val = 6400 * t.val + p.val :=
    ⟨⟨6400 * t.val + p.val, by have := t.isLt; have := p.isLt; omega⟩, rfl⟩
  have hemb : ((cfg0.win 7).blk t).view.emb (ix2 p j) = ix2 r j := by
    funext a
    apply Fin.ext
    match a with
    | ⟨0, _⟩ => show win0_7.index t (0 : Fin 2) * 6400 + 1 * p.val = r.val; rw [e0, hr]; omega
    | ⟨1, _⟩ => show win0_7.index t (1 : Fin 2) * 64 + 1 * j.val = j.val; rw [e1]; omega
  refine (payload_apply _ _ _ _ _ _ _ p j).trans ?_
  show _ = Cert.Spec.edgeOut (V c main_v5) (V c main_v7) (V c main_v9) (V c main_v11) (V c main_v13) (V c main_v12) (V c main_v14)
    (((cfg0.win 7).blk t).view.emb (ix2 p j))
  rw [hemb, edgeOut_apply]
  simp only [rows_first V c t p r hr, rows_second V c t p r hr, first_matrix_upper, first_matrix_lower, first_bias,
    second_matrix, second_bias]

/-- An index of the output array is in point `t`'s block iff each coordinate is in the block's range on its axis. -/
theorem mem_blk (t : Fin cfg0.N) (i : S800000x64.Idx) :
    i ∈ ((cfg0.win 7).blk t).view.set ↔ ∀ a : Fin 2, win0_7.index t a * S6400x64.size a ≤ (i a).val ∧ (i a).val < win0_7.index t a * S6400x64.size a + S6400x64.size a := by
  show i ∈ ((View.whole main_v15).slice (win0_7.rect t)).set ↔ _
  rw [View.set_slice_whole, Rect.mem_set_unit]
  exact Iff.rfl

/-- EVERY INDEX IS COVERED: row `r` lies in the block of point `r / 6400`. -/
theorem cover (i : S800000x64.Idx) : ∃ t : Fin cfg0.N, (cfg0.win 7).flush t = true ∧ i ∈ ((cfg0.win 7).blk t).view.set := by
  have hi0 : (i 0).val < 800000 := (i 0).isLt
  have hi1 : (i 1).val < 64 := (i 1).isLt
  have hN : cfg0.N = 125 := N_0
  obtain ⟨t, ht⟩ : ∃ t : Fin cfg0.N, t.val = (i 0).val / 6400 := ⟨⟨(i 0).val / 6400, by omega⟩, rfl⟩
  obtain ⟨-, -, -, -, -, -, -, -, -, -, -, -, -, -, e0, e1⟩ := block_index t
  refine ⟨t, flush0_7 t, ?_⟩
  rw [mem_blk]
  intro a
  match a with
  | ⟨0, _⟩ => show win0_7.index t (0 : Fin 2) * 6400 ≤ (i 0).val ∧ (i 0).val < win0_7.index t (0 : Fin 2) * 6400 + 6400; rw [e0, ht]; omega
  | ⟨1, _⟩ => show win0_7.index t (1 : Fin 2) * 64 ≤ (i 1).val ∧ (i 1).val < win0_7.index t (1 : Fin 2) * 64 + 64; rw [e1]; omega

/-- THE EDGE PIPELINE'S OUTPUT ARRAY after its 125 grid points, whatever the contents `V` it is entered with: the edge
    perceptron of the operand arrays as `V` holds them, index by index. -/
theorem final (c : Dev nD) :
    (dat0 (F := Ideal) V c).arrAt 7 cfg0.N
      = Cert.Spec.edgeOut (V c main_v5) (V c main_v7) (V c main_v9) (V c main_v11) (V c main_v13) (V c main_v12) (V c main_v14) :=
  (dat0 (F := Ideal) V c).arrAt_eq_of_cover 7 _ (fun t _ => flushed_eq V c t) cover

end Cert.KernelIdeal.EdgeRegion

end
-- ==== Proof.NodeRegion.lean ====
import proofs.«415306_j68195490726191_1_alg».proof.Proof.Gen.KernelIdeal.Frame
import proofs.«415306_j68195490726191_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NodeRegion

open Idealize.ShloMosaic Idealize.ShloMosaic.TcCoe Idealize.SL.Sem Idealize.ShloMosaic.ValueIdx
open Cert.KernelIdeal Cert.KernelIdeal.Gen

-- the buffer contents the region is entered with: any
variable (V : (c : Dev nD) → (b : Ref sig .tc) → Buf (Elt Ideal) ((c : Thread nD τ).loc b))

/-! ## The two contractions of the node perceptron, read at an index

The first layer multiplies a block of 5000 rows of 64 by a 64 x 128 matrix, the second a block of 5000 rows of 128 by
a 128 x 64 matrix; each contracts the left operand's axis 1 with the right operand's axis 0. At an output index
(p, k) the left operand is read at (p, d) and the right at (d, k), d the contraction's one coordinate. -/

theorem lhs_layer1_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_layer1_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_layer1_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_layer1_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The first layer's product into the zero accumulator, at row `p` and column `k`: the sum over the 64 features of
    the row's entry times the matrix's. -/
theorem layer1_apply (a : FVec Ideal S5000x64 .bf16) (w : FVec Ideal S64x128 .bf16) (p : Fin 5000) (k : Fin 128) :
    matmul dot_S5000x64_S64x128_S5000x128_1_0_0_1_n_n none a w (constant (F := Ideal) S5000x128 .f32 0x00000000#32) (ix2 p k)
      = ∑ d : Fin 64, a (ix2 p d) * w (ix2 d k) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun d _ => ?_
  have hd := ValueIdx.contrEquiv1_symm_val dot_S5000x64_S64x128_S5000x128_1_0_0_1_n_n 64 rfl rfl d
  have el : dot_S5000x64_S64x128_S5000x128_1_0_0_1_n_n.lhsIdx (ix2 p k) ((ValueIdx.contrEquiv1 dot_S5000x64_S64x128_S5000x128_1_0_0_1_n_n 64 rfl rfl).symm d) = ix2 p d := funext fun a => Fin.ext (by
    match a with
    | ⟨0, _⟩ => exact lhs_layer1_0 _ _
    | ⟨1, _⟩ => exact (lhs_layer1_1 _ _).trans hd)
  have er : dot_S5000x64_S64x128_S5000x128_1_0_0_1_n_n.rhsIdx (ix2 p k) ((ValueIdx.contrEquiv1 dot_S5000x64_S64x128_S5000x128_1_0_0_1_n_n 64 rfl rfl).symm d) = ix2 d k := funext fun a => Fin.ext (by
    match a with
    | ⟨0, _⟩ => exact (rhs_layer1_0 _ _).trans hd
    | ⟨1, _⟩ => exact rhs_layer1_1 _ _)
  rw [el, er]

theorem lhs_layer2_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_layer2_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_layer2_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_layer2_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The second layer's product into the zero accumulator, at row `p` and column `j`: the sum over the 128 hidden
    units of the row's entry times the matrix's. -/
theorem layer2_apply (a : FVec Ideal S5000x128 .bf16) (w : FVec Ideal S128x64 .bf16) (p : Fin 5000) (j : Fin 64) :
    matmul dot_S5000x128_S128x64_S5000x64_1_0_0_1_n_n none a w (constant (F := Ideal) S5000x64 .f32 0x00000000#32) (ix2 p j)
      = ∑ k : Fin 128, a (ix2 p k) * w (ix2 k j) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p j) ((ValueIdx.contrEquiv1 dot_S5000x128_S128x64_S5000x64_1_0_0_1_n_n 128 rfl rfl).symm k) = ix2 p k := funext fun a => Fin.ext (by
    match a with
    | ⟨0, _⟩ => exact lhs_layer2_0 _ _
    | ⟨1, _⟩ => exact (lhs_layer2_1 _ _).trans hk)
  have er : dot_S5000x128_S128x64_S5000x64_1_0_0_1_n_n.rhsIdx (ix2 p j) ((ValueIdx.contrEquiv1 dot_S5000x128_S128x64_S5000x64_1_0_0_1_n_n 128 rfl rfl).symm k) = ix2 k j := funext fun a => Fin.ext (by
    match a with
    | ⟨0, _⟩ => exact (rhs_layer2_0 _ _).trans hk
    | ⟨1, _⟩ => exact rhs_layer2_1 _ _)
  rw [el, er]

/-! ## The body's payload at an index -/

/-- THE PAYLOAD AT ROW `p`, COLUMN `j` of a block: the node's own entry plus the perceptron of the node's row and its
    summed-message row. Format changes and same-shape casts are the identity on the extended reals; the two first-layer
    products are added, then the bias row, the rectifier is the maximum with the zero word's value `0`; the second
    product plus its bias row is added to the node's entry last, in the specification's own association. -/
theorem payload_apply (x0 x1 : Vec Ideal S5000x64 .f32) (x2 x3 : Vec Ideal S64x128 .bf16) (x4 : Vec Ideal S1x128 .f32)
    (x5 : Vec Ideal S128x64 .bf16) (x6 : Vec Ideal S1x64 .f32) (p : Fin 5000) (j : Fin 64) :
    k1_pay1 x0 x1 x2 x3 x4 x5 x6 (ix2 p j)
      = x0 (ix2 p j) + Cert.Spec.mlp (fun d => x0 (ix2 p d)) (fun d => x1 (ix2 p d)) (fun d k => x2 (ix2 d k))
          (fun d k => x3 (ix2 d k)) (fun k => x4 (ix2 0 k)) (fun k j => x5 (ix2 k j)) (fun j => x6 (ix2 0 j)) j := by
  unfold k1_pay1
  simp only [shapeCast_self]
  rw [addf_apply, addf_apply, layer2_apply, broadcastTo_1b_ab_apply]
  unfold Cert.Spec.mlp
  refine congrArg (x0 (ix2 p j) + ·) (congrArg (· + x6 (ix2 0 j)) (Finset.sum_congr rfl fun k _ => ?_))
  rw [truncf_apply, maximumf_apply, addf_apply, addf_apply, layer1_apply, layer1_apply, broadcastTo_1b_ab_apply, broadcast_apply]
  simp only [truncf_apply]
  rw [show (FloatOps.ofBits FTy.f32 0x00000000#32 : Ideal .f32) = 0 from Ideal.ofBits_zero_f32]

/-! ## From blocks to the array

The grid is one axis of 10 points. At point `t` the node rows, the summed messages and the output take rows
[5000 t, 5000 t + 5000) of their 50000 x 64 arrays, all 64 columns; the five operand windows take their whole arrays
at every point. -/

theorem zeros2 : (![0, 0] : Fin 2 → Nat) = fun _ => 0 := funext fun a => by fin_cases a <;> rfl

/-- Rows [5000 t, 5000 t + 5000) of a 50000 x 64 array, as a block of 5000 x 64. -/
def rowBlock (A : Cert.Spec.Arr 50000 64) (t : Nat) (ht : t < 10) : Vec Ideal S5000x64 .f32 := fun x =>
  A (ix2 (⟨5000 * t + (x 0).val, by have := idx2_lt0 x; omega⟩ : Fin 50000) (⟨(x 1).val, idx2_lt1 x⟩ : Fin 64))

/-- The payload of the row blocks at point `t` is the specification's array at the block's place: row
    5000 t + p, column j. -/
theorem payload_rowBlock (h mi : Cert.Spec.Arr 50000 64) (w1h w1m : Cert.Spec.Arr 64 128) (b1 : Cert.Spec.Arr 1 128)
    (w2 : Cert.Spec.Arr 128 64) (b2 : Cert.Spec.Arr 1 64) (t : Nat) (ht : t < 10) (p : Fin 5000) (j : Fin 64)
    (hr : 5000 * t + p.val < 50000) :
    k1_pay1 (F := Ideal) (rowBlock h t ht) (rowBlock mi t ht) w1h w1m b1 w2 b2 (ix2 p j)
      = Cert.Spec.nodeOut h mi w1h w1m b1 w2 b2 (ix2 (⟨5000 * t + p.val, hr⟩ : Fin 50000) j) := by
  rw [payload_apply]
  rfl

/-- The printed index maps, decided once over the grid: the three row windows' block index is (t, 0), the five
    operand windows' is (0, 0). -/
theorem block_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The node rows' block at point `t` is rows [5000 t, 5000 t + 5000) of the node feature array. -/
theorem node_rows_apply (c : Dev nD) (t : Fin cfg1.N) (ht : t.val < 10) (x : S5000x64.Idx) :
    (iblk1 V c 0 t : Vec Ideal S5000x64 .f32) x = rowBlock (V c main_arg0) t.val ht x := by
  obtain ⟨e0, e1, -⟩ := block_index_facts t
  unfold iblk1 rowBlock
  rw [View.read_apply]
  show V c main_arg0 _ = V c main_arg0 _
  congr 1
  funext a
  apply Fin.ext
  match a with
  | ⟨0, _⟩ => show win1_0.index t (0 : Fin 2) * 5000 + 1 * (x 0).val = 5000 * t.val + (x 0).val; rw [e0]; omega
  | ⟨1, _⟩ => show win1_0.index t (1 : Fin 2) * 64 + 1 * (x 1).val = (x 1).val; rw [e1]; omega

theorem node_rows_eq (c : Dev nD) (t : Fin cfg1.N) (ht : t.val < 10) :
    (iblk1 V c 0 t : Vec Ideal S5000x64 .f32) = rowBlock (V c main_arg0) t.val ht := funext (node_rows_apply V c t ht)

/-- The summed messages' block at point `t` is rows [5000 t, 5000 t + 5000) of the summed-message array. -/
theorem message_rows_apply (c : Dev nD) (t : Fin cfg1.N) (ht : t.val < 10) (x : S5000x64.Idx) :
    (iblk1 V c 1 t : Vec Ideal S5000x64 .f32) x = rowBlock (V c main_v18) t.val ht x := by
  obtain ⟨-, -, e0, e1, -⟩ := block_index_facts t
  unfold iblk1 rowBlock
  rw [View.read_apply]
  show V c main_v18 _ = V c main_v18 _
  congr 1
  funext a
  apply Fin.ext
  match a with
  | ⟨0, _⟩ => show win1_1.index t (0 : Fin 2) * 5000 + 1 * (x 0).val = 5000 * t.val + (x 0).val; rw [e0]; omega
  | ⟨1, _⟩ => show win1_1.index t (1 : Fin 2) * 64 + 1 * (x 1).val = (x 1).val; rw [e1]; omega

theorem message_rows_eq (c : Dev nD) (t : Fin cfg1.N) (ht : t.val < 10) :
    (iblk1 V c 1 t : Vec Ideal S5000x64 .f32) = rowBlock (V c main_v18) t.val ht := funext (message_rows_apply V c t ht)

/-- Each operand window's block, at every point, is its whole array: block index (0, 0) of a block as large as the
    array. -/
theorem w1h_block_eq (c : Dev nD) (t : Fin cfg1.N) : (iblk1 V c 2 t : Vec Ideal S64x128 .bf16) = V c main_v20 := by
  obtain ⟨-, -, -, -, -, -, e0, e1, -⟩ := block_index_facts t
  funext x
  unfold iblk1
  rw [View.read_apply]
  show V c main_v20 _ = V c main_v20 x
  congr 1
  funext a
  apply Fin.ext
  match a with
  | ⟨0, _⟩ => show win1_2.index t (0 : Fin 2) * 64 + 1 * (x 0).val = (x 0).val; rw [e0]; omega
  | ⟨1, _⟩ => show win1_2.index t (1 : Fin 2) * 128 + 1 * (x 1).val = (x 1).val; rw [e1]; omega

theorem w1m_block_eq (c : Dev nD) (t : Fin cfg1.N) : (iblk1 V c 3 t : Vec Ideal S64x128 .bf16) = V c main_v22 := by
  obtain ⟨-, -, -, -, -, -, -, -, e0, e1, -⟩ := block_index_facts t
  funext x
  unfold iblk1
  rw [View.read_apply]
  show V c main_v22 _ = V c main_v22 x
  congr 1
  funext a
  apply Fin.ext
  match a with
  | ⟨0, _⟩ => show win1_3.index t (0 : Fin 2) * 64 + 1 * (x 0).val = (x 0).val; rw [e0]; omega
  | ⟨1, _⟩ => show win1_3.index t (1 : Fin 2) * 128 + 1 * (x 1).val = (x 1).val; rw [e1]; omega

theorem b1_block_eq (c : Dev nD) (t : Fin cfg1.N) : (iblk1 V c 4 t : Vec Ideal S1x128 .f32) = V c main_v24 := by
  obtain ⟨-, -, -, -, -, -, -, -, -, -, e0, e1, -⟩ := block_index_facts t
  funext x
  unfold iblk1
  rw [View.read_apply]
  show V c main_v24 _ = V c main_v24 x
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

theorem w2_block_eq (c : Dev nD) (t : Fin cfg1.N) : (iblk1 V c 5 t : Vec Ideal S128x64 .bf16) = V c main_v23 := by
  obtain ⟨-, -, -, -, -, -, -, -, -, -, -, -, e0, e1, -⟩ := block_index_facts t
  funext x
  unfold iblk1
  rw [View.read_apply]
  show V c main_v23 _ = V c main_v23 x
  congr 1
  funext a
  apply Fin.ext
  match a with
  | ⟨0, _⟩ => show win1_5.index t (0 : Fin 2) * 128 + 1 * (x 0).val = (x 0).val; rw [e0]; omega
  | ⟨1, _⟩ => show win1_5.index t (1 : Fin 2) * 64 + 1 * (x 1).val = (x 1).val; rw [e1]; omega

theorem b2_block_eq (c : Dev nD) (t : Fin cfg1.N) : (iblk1 V c 6 t : Vec Ideal S1x64 .f32) = V c main_v25 := by
  obtain ⟨-, -, -, -, -, -, -, -, -, -, -, -, -, -, e0, e1⟩ := block_index_facts t
  funext x
  unfold iblk1
  rw [View.read_apply]
  show V c main_v25 _ = V c main_v25 x
  congr 1
  funext a
  apply Fin.ext
  match a with
  | ⟨0, _⟩ => show win1_6.index t (0 : Fin 2) * 1 + 1 * (x 0).val = (x 0).val; rw [e0]; omega
  | ⟨1, _⟩ => show win1_6.index t (1 : Fin 2) * 64 + 1 * (x 1).val = (x 1).val; rw [e1]; omega

/-- WHAT POINT `t` WRITES BACK is block `t` of the specification's array of the operand arrays as the region finds
    them: the body's one store covers the staging buffer, its loads are the whole blocks, and the payload of the row
    blocks is the specification at the block's place in the array. -/
theorem writeback_eq_rows (c : Dev nD) (t : Fin cfg1.N) :
    (dat1 (F := Ideal) V c).flushed 7 t
      = ((cfg1.win 7).blk t).view.read (Elt Ideal) (Cert.Spec.nodeOut (V c main_arg0) (V c main_v18) (V c main_v20) (V c main_v22) (V c main_v24) (V c main_v23) (V c main_v25)) := by
  have ht : t.val < 10 := lt_of_lt_of_eq t.isLt N_1
  obtain ⟨-, -, -, -, e0, e1, -⟩ := block_index_facts t
  show (cfg1.win 7).cut (grid1.coords t) ((dat1 V c).after 7 t) = _
  rw [after1_7]
  unfold out1_7
  rw [View.canon_unit_zero zeros2]
  simp only [View.ld_unit_zero (S := S5000x64) zeros2, View.ld_unit_zero (S := S64x128) zeros2, View.ld_unit_zero (S := S1x128) zeros2,
    View.ld_unit_zero (S := S128x64) zeros2, View.ld_unit_zero (S := S1x64) zeros2]
  rw [node_rows_eq V c t ht, message_rows_eq V c t ht, w1h_block_eq V c t, w1m_block_eq V c t, b1_block_eq V c t, w2_block_eq V c t, b2_block_eq V c t]
  funext y
  have h0 : (y 0).val < 5000 := (y 0).isLt
  have h1 : (y 1).val < 64 := (y 1).isLt
  have hy : (cfg1.win 7).xinj (grid1.coords t) y = ix2 (⟨(y 0).val, h0⟩ : Fin 5000) (⟨(y 1).val, h1⟩ : Fin 64) :=
    funext fun a => by match a with | ⟨0, _⟩ => rfl | ⟨1, _⟩ => rfl
  have he : ((cfg1.win 7).blk t).view.emb y = ix2 (⟨5000 * t.val + (y 0).val, by omega⟩ : Fin 50000) (⟨(y 1).val, h1⟩ : Fin 64) :=
    funext fun a => Fin.ext (by
      match a with
      | ⟨0, _⟩ => show win1_7.index t (0 : Fin 2) * 5000 + 1 * (y 0).val = 5000 * t.val + (y 0).val; rw [e0]; omega
      | ⟨1, _⟩ => show win1_7.index t (1 : Fin 2) * 64 + 1 * (y 1).val = (y 1).val; rw [e1]; omega)
  rw [View.read_apply]
  show k1_pay1 (F := Ideal) _ _ _ _ _ _ _ ((cfg1.win 7).xinj (grid1.coords t) y)
    = Cert.Spec.nodeOut (V c main_arg0) (V c main_v18) (V c main_v20) (V c main_v22) (V c main_v24) (V c main_v23) (V c main_v25) (((cfg1.win 7).blk t).view.emb y)
  rw [hy, he]
  exact payload_rowBlock _ _ _ _ _ _ _ t.val ht _ _ _

/-- An index of the output array is in point `t`'s block iff each coordinate is in the block's range on its axis. -/
theorem mem_rows_iff (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v26).slice (win1_7.rect t)).set ↔ _
  rw [View.set_slice_whole, Rect.mem_set_unit]
  exact Iff.rfl

/-- THE COVER: row r of the output array is in the block of point r / 5000, which is written back. -/
theorem rows_cover (i : S50000x64.Idx) : ∃ t : Fin cfg1.N, (cfg1.win 7).flush t = true ∧ i ∈ ((cfg1.win 7).blk t).view.set := by
  have hi0 : (i 0).val < 50000 := idx2_lt0 i
  have hi1 : (i 1).val < 64 := idx2_lt1 i
  have hN : cfg1.N = 10 := N_1
  let t : Fin cfg1.N := ⟨(i 0).val / 5000, by rw [hN]; omega⟩
  obtain ⟨-, -, -, -, e0, e1, -⟩ := block_index_facts t
  have ht : t.val = (i 0).val / 5000 := rfl
  refine ⟨t, flush1_7 t, ?_⟩
  rw [mem_rows_iff]
  intro a
  match a with
  | ⟨0, _⟩ => show win1_7.index t (0 : Fin 2) * 5000 ≤ (i 0).val ∧ (i 0).val < win1_7.index t (0 : Fin 2) * 5000 + 5000; rw [e0, ht]; omega
  | ⟨1, _⟩ => show win1_7.index t (1 : Fin 2) * 64 ≤ (i 1).val ∧ (i 1).val < win1_7.index t (1 : Fin 2) * 64 + 64; rw [e1]; omega

/-- THE NODE PIPELINE'S OUTPUT ARRAY after its 10 grid points, whatever the contents `V` it is entered with: the node
    perceptron of the operand arrays as `V` holds them added to the node rows, index by index. -/
theorem final (c : Dev nD) :
    (dat1 (F := Ideal) V c).arrAt 7 cfg1.N
      = Cert.Spec.nodeOut (V c main_arg0) (V c main_v18) (V c main_v20) (V c main_v22) (V c main_v24) (V c main_v23) (V c main_v25) :=
  (dat1 (F := Ideal) V c).arrAt_eq_of_cover 7 _ (fun t _ => writeback_eq_rows V c t) rows_cover

end Cert.KernelIdeal.NodeRegion

end
-- ==== Proof.Operands.lean ====
import proofs.«415306_j68195490726191_1_alg».proof.Proof.Gen.KernelIdeal.Frame
import proofs.«415306_j68195490726191_1_alg».proof.Proof.Spec
import proofs.«415306_j68195490726191_1_alg».proof.Proof.Take
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Operands

open Idealize.ShloMosaic Idealize.ShloMosaic.TcCoe Idealize.SL.Sem Idealize.ShloMosaic.ValueIdx
open Cert.KernelIdeal Cert.KernelIdeal.Gen Cert.KernelIdeal.Take

variable (m : (ℓ : Loc nD τ sig) → Buf (Elt Ideal) ℓ) (ρ : Dev nD → PrngReg)

/-- The zero array the messages are summed into. -/
def zeros : FVec Ideal S50000x64 .f32 := broadcastInDim S50000x64 ![] bcast_S_S50000x64 (constant S_ .f32 0x00000000#32)

/-- The messages `u` summed into a zero array at the rows the edge list's row 0 names. -/
def summed (ei : IVec S2x800000 32) (u : FVec Ideal S800000x64 .f32) : FVec Ideal S50000x64 .f32 :=
  Host.scatterAdd scatter_S50000x64_S800000x1_S800000x64_1_0_0_1 zeros
    (broadcastInDim S800000x1 ![0] bcast_S800000_S800000x1_0 (row0 ei)) u

/-! ## The operands read at an index: pure array facts on the extended reals -/

section Pure

/-- Two perceptron entries with equal operands are equal. -/
theorem mlp_congr {a a' b b' : Fin 64 → EReal} {Wa Wa' Wb Wb' : Fin 64 → Fin 128 → EReal} {b1 b1' : Fin 128 → EReal}
    {W2 W2' : Fin 128 → Fin 64 → EReal} {b2 b2' : Fin 64 → EReal} (j : Fin 64)
    (ha : a = a') (hb : b = b') (hWa : Wa = Wa') (hWb : Wb = Wb') (hb1 : b1 = b1') (hW2 : W2 = W2') (hb2 : b2 = b2') :
    Cert.Spec.mlp a b Wa Wb b1 W2 b2 j = Cert.Spec.mlp a' b' Wa' Wb' b1' W2' b2' j := by
  subst ha hb hWa hWb hb1 hW2 hb2; rfl

/-- The upper 64 rows of a 128 x 128 matrix, narrowed: entry `(d, k)` is the matrix's entry `(lo d, k)`. -/
theorem upper_apply (W : FVec Ideal S128x128 .f32) (d : Fin 64) (k : Fin 128) :
    (truncf .bf16 (extractStridedSlice S64x128 ![0, 0] W slices_S128x128_S64x128_0_0) bitsLt_bf16_f32 : FVec Ideal S64x128 .bf16) (ix2 d k)
      = W (ix2 (Cert.Spec.lo d) k) :=
  (truncf_apply _ bitsLt_bf16_f32 (ix2 d k)).trans
    (slice2_axis0_apply 0 W slices_S128x128_S64x128_0_0 d k (Cert.Spec.lo d) (by show d.val = 0 + d.val; omega))

/-- The lower 64 rows of a 128 x 128 matrix, narrowed: entry `(d, k)` is the matrix's entry `(hi d, k)`. -/
theorem lower_apply (W : FVec Ideal S128x128 .f32) (d : Fin 64) (k : Fin 128) :
    (truncf .bf16 (extractStridedSlice S64x128 ![64, 0] W slices_S128x128_S64x128_64_0) bitsLt_bf16_f32 : FVec Ideal S64x128 .bf16) (ix2 d k)
      = W (ix2 (Cert.Spec.hi d) k) :=
  (truncf_apply _ bitsLt_bf16_f32 (ix2 d k)).trans
    (slice2_axis0_apply 64 W slices_S128x128_S64x128_64_0 d k (Cert.Spec.hi d) rfl)

/-- A bias vector of 128 laid out as one row: entry `(0, k)` is the vector's entry `k`. -/
theorem bias128_apply (b : FVec Ideal S128 .f32) (k : Fin 128) :
    (shapeCast S1x128 b shapeCasts_S128_S1x128 : FVec Ideal S1x128 .f32) (ix2 0 k) = b (ix1 k) :=
  shapeCast_a_1a_apply b shapeCasts_S128_S1x128 0 k

/-- A bias vector of 64 laid out as one row: entry `(0, j)` is the vector's entry `j`. -/
theorem bias64_apply (b : FVec Ideal S64 .f32) (j : Fin 64) :
    (shapeCast S1x64 b shapeCasts_S64_S1x64 : FVec Ideal S1x64 .f32) (ix2 0 j) = b (ix1 j) :=
  shapeCast_a_1a_apply b shapeCasts_S64_S1x64 0 j

/-- The edge perceptron at the kernel's operands — the two row arrays narrowed, the first matrix cut into its upper and
    lower 64 rows and narrowed, the second matrix narrowed, the biases as rows — is the perceptron at the parameters:
    a narrowing is the identity on the extended reals, a cut reads the matrix's own rows, a one-row layout the
    vector's own entries. -/
theorem edge_pure (hr hc : FVec Ideal S800000x64 .f32) (W1 : FVec Ideal S128x128 .f32) (b1 : FVec Ideal S128 .f32)
    (W2 : FVec Ideal S128x64 .f32) (b2 : FVec Ideal S64 .f32) :
    Cert.Spec.edgeOut (truncf .bf16 hr bitsLt_bf16_f32 : FVec Ideal S800000x64 .bf16) (truncf .bf16 hc bitsLt_bf16_f32 : FVec Ideal S800000x64 .bf16)
        (truncf .bf16 (extractStridedSlice S64x128 ![0, 0] W1 slices_S128x128_S64x128_0_0) bitsLt_bf16_f32 : FVec Ideal S64x128 .bf16)
        (truncf .bf16 (extractStridedSlice S64x128 ![64, 0] W1 slices_S128x128_S64x128_64_0) bitsLt_bf16_f32 : FVec Ideal S64x128 .bf16)
        (shapeCast S1x128 b1 shapeCasts_S128_S1x128 : FVec Ideal S1x128 .f32)
        (truncf .bf16 W2 bitsLt_bf16_f32 : FVec Ideal S128x64 .bf16)
        (shapeCast S1x64 b2 shapeCasts_S64_S1x64 : FVec Ideal S1x64 .f32)
      = Cert.Spec.edgeRef hr hc W1 b1 W2 b2 := by
  funext i
  unfold Cert.Spec.edgeOut Cert.Spec.edgeRef
  refine congrArg (fun z : EReal => max z 0) (mlp_congr (i 1) rfl rfl ?_ ?_ ?_ rfl ?_)
  · funext d k; exact upper_apply W1 d k
  · funext d k; exact lower_apply W1 d k
  · funext k; exact bias128_apply b1 k
  · funext j; exact bias64_apply b2 j

/-- The node perceptron at the kernel's operands is the perceptron at the parameters, for the same three reasons. -/
theorem node_pure (h mi : FVec Ideal S50000x64 .f32) (W1 : FVec Ideal S128x128 .f32) (b1 : FVec Ideal S128 .f32)
    (W2 : FVec Ideal S128x64 .f32) (b2 : FVec Ideal S64 .f32) :
    Cert.Spec.nodeOut h mi
        (truncf .bf16 (extractStridedSlice S64x128 ![0, 0] W1 slices_S128x128_S64x128_0_0) bitsLt_bf16_f32 : FVec Ideal S64x128 .bf16)
        (truncf .bf16 (extractStridedSlice S64x128 ![64, 0] W1 slices_S128x128_S64x128_64_0) bitsLt_bf16_f32 : FVec Ideal S64x128 .bf16)
        (shapeCast S1x128 b1 shapeCasts_S128_S1x128 : FVec Ideal S1x128 .f32)
        (truncf .bf16 W2 bitsLt_bf16_f32 : FVec Ideal S128x64 .bf16)
        (shapeCast S1x64 b2 shapeCasts_S64_S1x64 : FVec Ideal S1x64 .f32)
      = Cert.Spec.nodeRef h mi W1 b1 W2 b2 := by
  funext i
  unfold Cert.Spec.nodeOut Cert.Spec.nodeRef
  refine congrArg (fun z : EReal => h i + z) (mlp_congr (i 1) rfl rfl ?_ ?_ ?_ rfl ?_)
  · funext d k; exact upper_apply W1 d k
  · funext d k; exact lower_apply W1 d k
  · funext k; exact bias128_apply b1 k
  · funext j; exact bias64_apply b2 j

end Pure

/-! ## What each stretch of host operations writes, and what it keeps

Every stretch is read over a VARIABLE valuation `V`, so that no statement here mentions the fold of the stretches before
it: a stretch's result at a reference it writes is the operations' term over `V` at the references it reads, and at a
reference outside its written list it is `V` there. -/

section Stretches

/-- Contents moved to a buffer's own type and back are the contents. -/
theorem ofBuf_toBuf {T : BufTy} (x : StableHlo.TRef sig T) (v : T.Contents (Elt Ideal)) : x.ofBuf (x.toBuf v) = v := by
  simp only [StableHlo.TRef.ofBuf, StableHlo.TRef.toBuf, cast_cast, cast_eq]

/-- The references the row cuts write. -/
abbrev wrCut : List (Ref sig .tc) := [main_v0, main_v1, main_v2, main_v3]
/-- The references the first row take writes. -/
abbrev wrTake0 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v4]
/-- The reference the first narrowing writes. -/
abbrev wrNarrow0 : List (Ref sig .tc) := [main_v5]
/-- The references the second row take writes. -/
abbrev wrTake1 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v6]
/-- The references the edge layer's parameter preparation writes. -/
abbrev wrEdgePar : List (Ref sig .tc) := [main_v7, main_v8, main_v9, main_v10, main_v11, main_v12, main_v13, main_v14]
/-- The references the node layer's preparation writes. -/
abbrev wrNodePar : List (Ref sig .tc) :=
  [main_cst, main_v16, main_v17, main_v18, main_v19, main_v20, main_v21, main_v22, main_v23, main_v24, main_v25]

/-- Each operation of a stretch writes one reference of the stretch's list. -/
local macro "writes_in_list" : tactic => `(tactic| (
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)))

theorem wrCut_sub : (hostOps0 : List (HloOp τ sig (Elt Ideal))).Forall fun op => op.writes ⊆ (wrCut.map (Proc.devRef (τ := τ) .tc)).toFinset := by
  writes_in_list
theorem wrTake0_sub : (hostOps0_1 : List (HloOp τ sig (Elt Ideal))).Forall fun op => op.writes ⊆ (wrTake0.map (Proc.devRef (τ := τ) .tc)).toFinset := by
  writes_in_list
theorem wrNarrow0_sub : (hostOps0_2 : List (HloOp τ sig (Elt Ideal))).Forall fun op => op.writes ⊆ (wrNarrow0.map (Proc.devRef (τ := τ) .tc)).toFinset := by
  writes_in_list
theorem wrTake1_sub : (hostOps0_3 : List (HloOp τ sig (Elt Ideal))).Forall fun op => op.writes ⊆ (wrTake1.map (Proc.devRef (τ := τ) .tc)).toFinset := by
  writes_in_list
theorem wrEdgePar_sub : (hostOps0_4 : List (HloOp τ sig (Elt Ideal))).Forall fun op => op.writes ⊆ (wrEdgePar.map (Proc.devRef (τ := τ) .tc)).toFinset := by
  writes_in_list
theorem wrNodePar_sub : (hostOps1 : List (HloOp τ sig (Elt Ideal))).Forall fun op => op.writes ⊆ (wrNodePar.map (Proc.devRef (τ := τ) .tc)).toFinset := by
  writes_in_list

end Stretches

/-! ## What each stretch leaves at the references it writes -/

section Results

variable (V : Valuation τ sig (Elt Ideal))

/-- Contents at a value's type, moved to its buffer's own type, are the contents: the two types are one. -/
theorem toBuf_v4 (X : FVec Ideal S800000x64 .f32) :
    ((StableHlo.TRef.of main_v4 : StableHlo.TRef sig ⟨S800000x64, .f32⟩).toBuf (Val := Elt Ideal) X : FVec Ideal S800000x64 .f32) = X := rfl
theorem toBuf_v6 (X : FVec Ideal S800000x64 .f32) :
    ((StableHlo.TRef.of main_v6 : StableHlo.TRef sig ⟨S800000x64, .f32⟩).toBuf (Val := Elt Ideal) X : FVec Ideal S800000x64 .f32) = X := rfl

/-- The row cuts leave row 0 of the edge list in `main_v1` and row 1 in `main_v3`. -/
theorem cut_v1 : (StableHlo.after hostOps0 V (Proc.devRef .tc main_v1) : IVec S800000 32) = row0 (V (Proc.devRef .tc main_arg1)) := by
  after_results_simp
  rfl
theorem cut_v3 : (StableHlo.after hostOps0 V (Proc.devRef .tc main_v3) : IVec S800000 32) = row1 (V (Proc.devRef .tc main_arg1)) := by
  after_results_simp
  rfl

/-- The first row take's 23 operations compose to the take of the node rows at the index vector in `main_v1`: the
    operations' term, read from the result back to the operands, is the take's definition spelt out. -/
theorem take0_v4 : (StableHlo.after hostOps0_1 V (Proc.devRef .tc main_v4) : FVec Ideal S800000x64 .f32)
    = take (F := Ideal) (V (Proc.devRef .tc main_arg0)) (V (Proc.devRef .tc main_v1)) := by
  after_results_simp
  simp only [ofBuf_toBuf]
  have e1 : ((StableHlo.TRef.of main_v1 : StableHlo.TRef sig ⟨S800000, .i32⟩).ofBuf (V (Proc.devRef .tc main_v1)) : IVec S800000 32)
      = V (Proc.devRef .tc main_v1) := rfl
  have e0 : ((StableHlo.TRef.of main_arg0 : StableHlo.TRef sig ⟨S50000x64, .f32⟩).ofBuf (V (Proc.devRef .tc main_arg0)) : FVec Ideal S50000x64 .f32)
      = V (Proc.devRef .tc main_arg0) := rfl
  rw [e1, e0]
  unfold take rows inRange idxCol
  exact toBuf_v4 _

/-- The second row take's 23 operations compose to the take at the index vector in `main_v3`. -/
theorem take1_v6 : (StableHlo.after hostOps0_3 V (Proc.devRef .tc main_v6) : FVec Ideal S800000x64 .f32)
    = take (F := Ideal) (V (Proc.devRef .tc main_arg0)) (V (Proc.devRef .tc main_v3)) := by
  after_results_simp
  simp only [ofBuf_toBuf]
  have e1 : ((StableHlo.TRef.of main_v3 : StableHlo.TRef sig ⟨S800000, .i32⟩).ofBuf (V (Proc.devRef .tc main_v3)) : IVec S800000 32)
      = V (Proc.devRef .tc main_v3) := rfl
  have e0 : ((StableHlo.TRef.of main_arg0 : StableHlo.TRef sig ⟨S50000x64, .f32⟩).ofBuf (V (Proc.devRef .tc main_arg0)) : FVec Ideal S50000x64 .f32)
      = V (Proc.devRef .tc main_arg0) := rfl
  rw [e1, e0]
  unfold take rows inRange idxCol
  exact toBuf_v6 _

/-- The first narrowing. -/
theorem narrow0_v5 : (StableHlo.after hostOps0_2 V (Proc.devRef .tc main_v5) : FVec Ideal S800000x64 .bf16)
    = truncf (F := Ideal) .bf16 (V (Proc.devRef .tc main_v4) : FVec Ideal S800000x64 .f32) bitsLt_bf16_f32 := by
  after_results_simp

/-- The edge layer's parameter preparation: the second narrowing, the first matrix cut in two and narrowed, the second
    matrix narrowed, the biases laid out as rows. -/
theorem edgePar_v7 : (StableHlo.after hostOps0_4 V (Proc.devRef .tc main_v7) : FVec Ideal S800000x64 .bf16)
    = truncf (F := Ideal) .bf16 (V (Proc.devRef .tc main_v6) : FVec Ideal S800000x64 .f32) bitsLt_bf16_f32 := by
  after_results_simp
theorem edgePar_v9 : (StableHlo.after hostOps0_4 V (Proc.devRef .tc main_v9) : FVec Ideal S64x128 .bf16)
    = truncf (F := Ideal) .bf16 (extractStridedSlice S64x128 ![0, 0] (V (Proc.devRef .tc main_arg2) : FVec Ideal S128x128 .f32) slices_S128x128_S64x128_0_0) bitsLt_bf16_f32 := by
  after_results_simp
theorem edgePar_v11 : (StableHlo.after hostOps0_4 V (Proc.devRef .tc main_v11) : FVec Ideal S64x128 .bf16)
    = truncf (F := Ideal) .bf16 (extractStridedSlice S64x128 ![64, 0] (V (Proc.devRef .tc main_arg2) : FVec Ideal S128x128 .f32) slices_S128x128_S64x128_64_0) bitsLt_bf16_f32 := by
  after_results_simp
theorem edgePar_v12 : (StableHlo.after hostOps0_4 V (Proc.devRef .tc main_v12) : FVec Ideal S128x64 .bf16)
    = truncf (F := Ideal) .bf16 (V (Proc.devRef .tc main_arg4) : FVec Ideal S128x64 .f32) bitsLt_bf16_f32 := by
  after_results_simp
theorem edgePar_v13 : (StableHlo.after hostOps0_4 V (Proc.devRef .tc main_v13) : FVec Ideal S1x128 .f32)
    = shapeCast S1x128 (V (Proc.devRef .tc main_arg3) : FVec Ideal S128 .f32) shapeCasts_S128_S1x128 := by
  after_results_simp
  rfl
theorem edgePar_v14 : (StableHlo.after hostOps0_4 V (Proc.devRef .tc main_v14) : FVec Ideal S1x64 .f32)
    = shapeCast S1x64 (V (Proc.devRef .tc main_arg5) : FVec Ideal S64 .f32) shapeCasts_S64_S1x64 := by
  after_results_simp
  rfl

/-- The node layer's preparation: the messages in `main_v15` summed into a zero array at the index vector in `main_v1`,
    and the node layer's parameters cut, narrowed and laid out as the edge layer's were. -/
theorem nodePar_v18 : (StableHlo.after hostOps1 V (Proc.devRef .tc main_v18) : FVec Ideal S50000x64 .f32)
    = Host.scatterAdd scatter_S50000x64_S800000x1_S800000x64_1_0_0_1 zeros
        (broadcastInDim S800000x1 ![0] bcast_S800000_S800000x1_0 (V (Proc.devRef .tc main_v1) : IVec S800000 32))
        (V (Proc.devRef .tc main_v15) : FVec Ideal S800000x64 .f32) := by
  after_results_simp
  rfl
theorem nodePar_v20 : (StableHlo.after hostOps1 V (Proc.devRef .tc main_v20) : FVec Ideal S64x128 .bf16)
    = truncf (F := Ideal) .bf16 (extractStridedSlice S64x128 ![0, 0] (V (Proc.devRef .tc main_arg6) : FVec Ideal S128x128 .f32) slices_S128x128_S64x128_0_0) bitsLt_bf16_f32 := by
  after_results_simp
theorem nodePar_v22 : (StableHlo.after hostOps1 V (Proc.devRef .tc main_v22) : FVec Ideal S64x128 .bf16)
    = truncf (F := Ideal) .bf16 (extractStridedSlice S64x128 ![64, 0] (V (Proc.devRef .tc main_arg6) : FVec Ideal S128x128 .f32) slices_S128x128_S64x128_64_0) bitsLt_bf16_f32 := by
  after_results_simp
theorem nodePar_v23 : (StableHlo.after hostOps1 V (Proc.devRef .tc main_v23) : FVec Ideal S128x64 .bf16)
    = truncf (F := Ideal) .bf16 (V (Proc.devRef .tc main_arg8) : FVec Ideal S128x64 .f32) bitsLt_bf16_f32 := by
  after_results_simp
theorem nodePar_v24 : (StableHlo.after hostOps1 V (Proc.devRef .tc main_v24) : FVec Ideal S1x128 .f32)
    = shapeCast S1x128 (V (Proc.devRef .tc main_arg7) : FVec Ideal S128 .f32) shapeCasts_S128_S1x128 := by
  after_results_simp
  rfl
theorem nodePar_v25 : (StableHlo.after hostOps1 V (Proc.devRef .tc main_v25) : FVec Ideal S1x64 .f32)
    = shapeCast S1x64 (V (Proc.devRef .tc main_arg9) : FVec Ideal S64 .f32) shapeCasts_S64_S1x64 := by
  after_results_simp
  rfl

end Results

/-! ## The fold read back to the launch memory

`W0 … W5` are the contents after each stretch before the first pipeline, `W6` after that pipeline (which changes its own
arrays only), `W7` after the stretch before the second. A reference no stretch so far has written still holds its launch
contents; `main_v1` and `main_v3` hold the edge list's two rows from the first stretch on. -/

section Fold

/-- A stretch keeps every reference outside its written list. -/
theorem keepCut (V : Valuation τ sig (Elt Ideal)) {r : Ref sig .tc} (h : r ∉ wrCut) :
    StableHlo.after hostOps0 V (Proc.devRef .tc r) = V (Proc.devRef .tc r) := StableHlo.after_of_writes_sub hostOps0 V wrCut_sub h
theorem keepTake0 (V : Valuation τ sig (Elt Ideal)) {r : Ref sig .tc} (h : r ∉ wrTake0) :
    StableHlo.after hostOps0_1 V (Proc.devRef .tc r) = V (Proc.devRef .tc r) := StableHlo.after_of_writes_sub hostOps0_1 V wrTake0_sub h
theorem keepNarrow0 (V : Valuation τ sig (Elt Ideal)) {r : Ref sig .tc} (h : r ∉ wrNarrow0) :
    StableHlo.after hostOps0_2 V (Proc.devRef .tc r) = V (Proc.devRef .tc r) := StableHlo.after_of_writes_sub hostOps0_2 V wrNarrow0_sub h
theorem keepTake1 (V : Valuation τ sig (Elt Ideal)) {r : Ref sig .tc} (h : r ∉ wrTake1) :
    StableHlo.after hostOps0_3 V (Proc.devRef .tc r) = V (Proc.devRef .tc r) := StableHlo.after_of_writes_sub hostOps0_3 V wrTake1_sub h
theorem keepEdgePar (V : Valuation τ sig (Elt Ideal)) {r : Ref sig .tc} (h : r ∉ wrEdgePar) :
    StableHlo.after hostOps0_4 V (Proc.devRef .tc r) = V (Proc.devRef .tc r) := StableHlo.after_of_writes_sub hostOps0_4 V wrEdgePar_sub h
theorem keepNodePar (V : Valuation τ sig (Elt Ideal)) {r : Ref sig .tc} (h : r ∉ wrNodePar) :
    StableHlo.after hostOps1 V (Proc.devRef .tc r) = V (Proc.devRef .tc r) := StableHlo.after_of_writes_sub hostOps1 V wrNodePar_sub h

variable (c : Dev nD)

/-- A reference none of the stretches so far writes holds its launch contents. -/
theorem W1_keep {r : Ref sig .tc} (h0 : r ∉ wrCut) : W1 m ρ c (Proc.devRef .tc r) = m ((c : Thread nD τ).loc r) :=
  keepCut (W0 m ρ c) h0
theorem W2_keep {r : Ref sig .tc} (h0 : r ∉ wrCut) (h1 : r ∉ wrTake0) :
    W2 m ρ c (Proc.devRef .tc r) = m ((c : Thread nD τ).loc r) :=
  (keepTake0 (W1 m ρ c) h1).trans (W1_keep m ρ c h0)
theorem W3_keep {r : Ref sig .tc} (h0 : r ∉ wrCut) (h1 : r ∉ wrTake0) (h2 : r ∉ wrNarrow0) :
    W3 m ρ c (Proc.devRef .tc r) = m ((c : Thread nD τ).loc r) :=
  (keepNarrow0 (W2 m ρ c) h2).trans (W2_keep m ρ c h0 h1)
theorem W4_keep {r : Ref sig .tc} (h0 : r ∉ wrCut) (h1 : r ∉ wrTake0) (h2 : r ∉ wrNarrow0) (h3 : r ∉ wrTake1) :
    W4 m ρ c (Proc.devRef .tc r) = m ((c : Thread nD τ).loc r) :=
  (keepTake1 (W3 m ρ c) h3).trans (W3_keep m ρ c h0 h1 h2)
theorem W6_keep {r : Ref sig .tc} (h0 : r ∉ wrCut) (h1 : r ∉ wrTake0) (h2 : r ∉ wrNarrow0) (h3 : r ∉ wrTake1)
    (h4 : r ∉ wrEdgePar) (hw : ∀ w, Pipeline.arrRef spec0 w ≠ r) :
    W6 m ρ c (Proc.devRef .tc r) = m ((c : Thread nD τ).loc r) :=
  (W6_of_ne m ρ c r hw).trans ((keepEdgePar (W4 m ρ c) h4).trans (W4_keep m ρ c h0 h1 h2 h3))

/-- From the first stretch on, `main_v1` holds the edge list's row 0 … -/
theorem W1_v1 : (W1 m ρ c (Proc.devRef .tc main_v1) : IVec S800000 32) = row0 (m ((c : Thread nD τ).loc main_arg1)) :=
  cut_v1 (W0 m ρ c)
theorem W6_v1 : (W6 m ρ c (Proc.devRef .tc main_v1) : IVec S800000 32) = row0 (m ((c : Thread nD τ).loc main_arg1)) :=
  (W6_of_ne m ρ c main_v1 (by decide)).trans ((keepEdgePar (W4 m ρ c) (by decide)).trans ((keepTake1 (W3 m ρ c) (by decide)).trans
    ((keepNarrow0 (W2 m ρ c) (by decide)).trans ((keepTake0 (W1 m ρ c) (by decide)).trans (W1_v1 m ρ c)))))
/-- … and `main_v3` its row 1. -/
theorem W3_v3 : (W3 m ρ c (Proc.devRef .tc main_v3) : IVec S800000 32) = row1 (m ((c : Thread nD τ).loc main_arg1)) :=
  (keepNarrow0 (W2 m ρ c) (by decide)).trans ((keepTake0 (W1 m ρ c) (by decide)).trans (cut_v3 (W0 m ρ c)))

/-- The first take's result. -/
theorem W2_v4 : (W2 m ρ c (Proc.devRef .tc main_v4) : FVec Ideal S800000x64 .f32)
    = take (F := Ideal) (m ((c : Thread nD τ).loc main_arg0)) (row0 (m ((c : Thread nD τ).loc main_arg1))) := by
  have h := take0_v4 (W1 m ρ c)
  rw [W1_keep m ρ c (r := main_arg0) (by decide), W1_v1 m ρ c] at h
  exact h
/-- The second take's result. -/
theorem W4_v6 : (W4 m ρ c (Proc.devRef .tc main_v6) : FVec Ideal S800000x64 .f32)
    = take (F := Ideal) (m ((c : Thread nD τ).loc main_arg0)) (row1 (m ((c : Thread nD τ).loc main_arg1))) := by
  have h := take1_v6 (W3 m ρ c)
  rw [W3_keep m ρ c (r := main_arg0) (by decide) (by decide) (by decide), W3_v3 m ρ c] at h
  exact h

/-! ### The first pipeline's operands -/

theorem V5_v5 : (V5 m ρ c main_v5 : FVec Ideal S800000x64 .bf16)
    = truncf (F := Ideal) .bf16 (take (F := Ideal) (m ((c : Thread nD τ).loc main_arg0)) (row0 (m ((c : Thread nD τ).loc main_arg1)))) bitsLt_bf16_f32 := by
  have h := narrow0_v5 (W2 m ρ c)
  rw [W2_v4 m ρ c] at h
  exact (keepEdgePar (W4 m ρ c) (by decide)).trans ((keepTake1 (W3 m ρ c) (by decide)).trans h)
theorem V5_v7 : (V5 m ρ c main_v7 : FVec Ideal S800000x64 .bf16)
    = truncf (F := Ideal) .bf16 (take (F := Ideal) (m ((c : Thread nD τ).loc main_arg0)) (row1 (m ((c : Thread nD τ).loc main_arg1)))) bitsLt_bf16_f32 := by
  have h := edgePar_v7 (W4 m ρ c)
  rw [W4_v6 m ρ c] at h
  exact h
theorem V5_v9 : (V5 m ρ c main_v9 : FVec Ideal S64x128 .bf16)
    = truncf (F := Ideal) .bf16 (extractStridedSlice S64x128 ![0, 0] (m ((c : Thread nD τ).loc main_arg2) : FVec Ideal S128x128 .f32) slices_S128x128_S64x128_0_0) bitsLt_bf16_f32 := by
  have h := edgePar_v9 (W4 m ρ c)
  rw [W4_keep m ρ c (r := main_arg2) (by decide) (by decide) (by decide) (by decide)] at h
  exact h
theorem V5_v11 : (V5 m ρ c main_v11 : FVec Ideal S64x128 .bf16)
    = truncf (F := Ideal) .bf16 (extractStridedSlice S64x128 ![64, 0] (m ((c : Thread nD τ).loc main_arg2) : FVec Ideal S128x128 .f32) slices_S128x128_S64x128_64_0) bitsLt_bf16_f32 := by
  have h := edgePar_v11 (W4 m ρ c)
  rw [W4_keep m ρ c (r := main_arg2) (by decide) (by decide) (by decide) (by decide)] at h
  exact h
theorem V5_v12 : (V5 m ρ c main_v12 : FVec Ideal S128x64 .bf16)
    = truncf (F := Ideal) .bf16 (m ((c : Thread nD τ).loc main_arg4) : FVec Ideal S128x64 .f32) bitsLt_bf16_f32 := by
  have h := edgePar_v12 (W4 m ρ c)
  rw [W4_keep m ρ c (r := main_arg4) (by decide) (by decide) (by decide) (by decide)] at h
  exact h
theorem V5_v13 : (V5 m ρ c main_v13 : FVec Ideal S1x128 .f32)
    = shapeCast S1x128 (m ((c : Thread nD τ).loc main_arg3) : FVec Ideal S128 .f32) shapeCasts_S128_S1x128 := by
  have h := edgePar_v13 (W4 m ρ c)
  rw [W4_keep m ρ c (r := main_arg3) (by decide) (by decide) (by decide) (by decide)] at h
  exact h
theorem V5_v14 : (V5 m ρ c main_v14 : FVec Ideal S1x64 .f32)
    = shapeCast S1x64 (m ((c : Thread nD τ).loc main_arg5) : FVec Ideal S64 .f32) shapeCasts_S64_S1x64 := by
  have h := edgePar_v14 (W4 m ρ c)
  rw [W4_keep m ρ c (r := main_arg5) (by decide) (by decide) (by decide) (by decide)] at h
  exact h

/-! ### The second pipeline's operands -/

theorem V7_arg0 : V7 m ρ c main_arg0 = m ((c : Thread nD τ).loc main_arg0) :=
  (keepNodePar (W6 m ρ c) (by decide)).trans
    (W6_keep m ρ c (r := main_arg0) (by decide) (by decide) (by decide) (by decide) (by decide) (by decide))
theorem V7_v18 : (V7 m ρ c main_v18 : FVec Ideal S50000x64 .f32)
    = summed (m ((c : Thread nD τ).loc main_arg1)) (V6 m ρ c main_v15) := by
  have h := nodePar_v18 (W6 m ρ c)
  rw [W6_v1 m ρ c] at h
  exact h
theorem V7_v20 : (V7 m ρ c main_v20 : FVec Ideal S64x128 .bf16)
    = truncf (F := Ideal) .bf16 (extractStridedSlice S64x128 ![0, 0] (m ((c : Thread nD τ).loc main_arg6) : FVec Ideal S128x128 .f32) slices_S128x128_S64x128_0_0) bitsLt_bf16_f32 := by
  have h := nodePar_v20 (W6 m ρ c)
  rw [W6_keep m ρ c (r := main_arg6) (by decide) (by decide) (by decide) (by decide) (by decide) (by decide)] at h
  exact h
theorem V7_v22 : (V7 m ρ c main_v22 : FVec Ideal S64x128 .bf16)
    = truncf (F := Ideal) .bf16 (extractStridedSlice S64x128 ![64, 0] (m ((c : Thread nD τ).loc main_arg6) : FVec Ideal S128x128 .f32) slices_S128x128_S64x128_64_0) bitsLt_bf16_f32 := by
  have h := nodePar_v22 (W6 m ρ c)
  rw [W6_keep m ρ c (r := main_arg6) (by decide) (by decide) (by decide) (by decide) (by decide) (by decide)] at h
  exact h
theorem V7_v23 : (V7 m ρ c main_v23 : FVec Ideal S128x64 .bf16)
    = truncf (F := Ideal) .bf16 (m ((c : Thread nD τ).loc main_arg8) : FVec Ideal S128x64 .f32) bitsLt_bf16_f32 := by
  have h := nodePar_v23 (W6 m ρ c)
  rw [W6_keep m ρ c (r := main_arg8) (by decide) (by decide) (by decide) (by decide) (by decide) (by decide)] at h
  exact h
theorem V7_v24 : (V7 m ρ c main_v24 : FVec Ideal S1x128 .f32)
    = shapeCast S1x128 (m ((c : Thread nD τ).loc main_arg7) : FVec Ideal S128 .f32) shapeCasts_S128_S1x128 := by
  have h := nodePar_v24 (W6 m ρ c)
  rw [W6_keep m ρ c (r := main_arg7) (by decide) (by decide) (by decide) (by decide) (by decide) (by decide)] at h
  exact h
theorem V7_v25 : (V7 m ρ c main_v25 : FVec Ideal S1x64 .f32)
    = shapeCast S1x64 (m ((c : Thread nD τ).loc main_arg9) : FVec Ideal S64 .f32) shapeCasts_S64_S1x64 := by
  have h := nodePar_v25 (W6 m ρ c)
  rw [W6_keep m ρ c (r := main_arg9) (by decide) (by decide) (by decide) (by decide) (by decide) (by decide)] at h
  exact h

end Fold

/-- THE EDGE PIPELINE'S OPERANDS, as it is entered: the two row takes of the node rows at the edge list's two rows,
    and the edge layer's parameters cut and reshaped; so the kernel-operand form of the edge perceptron at them is the
    parameter form at the launch arrays. -/
theorem edge_operands (c : Dev nD) :
    Cert.Spec.edgeOut (V5 m ρ c main_v5) (V5 m ρ c main_v7) (V5 m ρ c main_v9) (V5 m ρ c main_v11) (V5 m ρ c main_v13)
        (V5 m ρ c main_v12) (V5 m ρ c main_v14)
      = Cert.Spec.edgeRef (take (F := Ideal) (m ((c : Thread nD τ).loc main_arg0)) (row0 (m ((c : Thread nD τ).loc main_arg1))))
          (take (F := Ideal) (m ((c : Thread nD τ).loc main_arg0)) (row1 (m ((c : Thread nD τ).loc main_arg1))))
          (m ((c : Thread nD τ).loc main_arg2)) (m ((c : Thread nD τ).loc main_arg3))
          (m ((c : Thread nD τ).loc main_arg4)) (m ((c : Thread nD τ).loc main_arg5)) := by
  rw [V5_v5 m ρ c, V5_v7 m ρ c, V5_v9 m ρ c, V5_v11 m ρ c, V5_v13 m ρ c, V5_v12 m ρ c, V5_v14 m ρ c]
  exact edge_pure _ _ _ _ _ _

/-- THE NODE PIPELINE'S OPERANDS, as it is entered: the node rows as launched, the first pipeline's output array summed
    at the edge list's row 0, and the node layer's parameters cut and reshaped. -/
theorem node_operands (c : Dev nD) :
    Cert.Spec.nodeOut (V7 m ρ c main_arg0) (V7 m ρ c main_v18) (V7 m ρ c main_v20) (V7 m ρ c main_v22) (V7 m ρ c main_v24)
        (V7 m ρ c main_v23) (V7 m ρ c main_v25)
      = Cert.Spec.nodeRef (m ((c : Thread nD τ).loc main_arg0))
          (summed (m ((c : Thread nD τ).loc main_arg1)) (V6 m ρ c main_v15))
          (m ((c : Thread nD τ).loc main_arg6)) (m ((c : Thread nD τ).loc main_arg7))
          (m ((c : Thread nD τ).loc main_arg8)) (m ((c : Thread nD τ).loc main_arg9)) := by
  rw [V7_arg0 m ρ c, V7_v18 m ρ c, V7_v20 m ρ c, V7_v22 m ρ c, V7_v24 m ρ c, V7_v23 m ρ c, V7_v25 m ρ c]
  exact node_pure _ _ _ _ _ _

end Cert.KernelIdeal.Operands

end
-- ==== Proof.RefValue.lean ====
import proofs.«415306_j68195490726191_1_alg».proof.Proof.Gen.ReferenceIdeal.Read
import proofs.«415306_j68195490726191_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

variable (x0 : (⟨S50000x64, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
  (x6 : (⟨S128x128, .f32⟩ : BufTy).Contents (Elt Ideal)) (x7 : (⟨S128, .f32⟩ : BufTy).Contents (Elt Ideal))
  (x8 : (⟨S128x64, .f32⟩ : BufTy).Contents (Elt Ideal)) (x9 : (⟨S64, .f32⟩ : BufTy).Contents (Elt Ideal))

/-! ## The join of two arrays of 64 columns along the columns, read at a column

A column below 64 of the joined array of 128 columns is that column of the first array; a column from 64 on is the
column 64 less of the second array. Both follow from where a position falls among the two extents 64 and 64. -/

section Join
variable {α : Type} {R : Nat}

/-- The joined array at a column of its first half is the first array at that column. -/
theorem join_lo (y z : (⟨2, ![R, 64]⟩ : Shape).Idx → α)
    (h : Shape.Concatenates [(⟨2, ![R, 64]⟩ : Shape), ⟨2, ![R, 64]⟩] ⟨2, ![R, 128]⟩ 1) (e : Fin R) (d : Fin 64) :
    concatenate (⟨2, ![R, 128]⟩ : Shape) 1 [⟨⟨2, ![R, 64]⟩, y⟩, ⟨⟨2, ![R, 64]⟩, z⟩] h (ix2 e (Cert.Spec.lo d))
      = y (ix2 e d) :=
  concatenate_pair_apply_left (t := ⟨2, ![R, 128]⟩) (s₁ := ⟨2, ![R, 64]⟩) (s₂ := ⟨2, ![R, 64]⟩) 1 y z h _ rfl _
    (fun b => by
      match b with
      | ⟨0, _⟩ => rfl
      | ⟨1, _⟩ => rfl)

/-- The joined array at a column of its second half is the second array at the column 64 less. -/
theorem join_hi (y z : (⟨2, ![R, 64]⟩ : Shape).Idx → α)
    (h : Shape.Concatenates [(⟨2, ![R, 64]⟩ : Shape), ⟨2, ![R, 64]⟩] ⟨2, ![R, 128]⟩ 1) (e : Fin R) (d : Fin 64) :
    concatenate (⟨2, ![R, 128]⟩ : Shape) 1 [⟨⟨2, ![R, 64]⟩, y⟩, ⟨⟨2, ![R, 64]⟩, z⟩] h (ix2 e (Cert.Spec.hi d))
      = z (ix2 e d) :=
  concatenate_pair_apply_right (t := ⟨2, ![R, 128]⟩) (s₁ := ⟨2, ![R, 64]⟩) (s₂ := ⟨2, ![R, 64]⟩) 1 y z h _ rfl rfl _
    (fun b hb => by
      match b with
      | ⟨0, _⟩ => rfl
      | ⟨1, _⟩ => exact absurd rfl hb)
    (by show d.val + 64 = 64 + d.val; omega)

end Join

/-! ## The edge perceptron -/

/-- The joined gathered rows at a column of the first half: the first end point's row. -/
theorem v18_lo (e : Fin 800000) (d : Fin 64) :
    val_main_v18 (F := Ideal) x0 x1 (ix2 e (Cert.Spec.lo d)) = val_main_v10 (F := Ideal) x0 x1 (ix2 e d) := by
  unfold val_main_v18
  generalize val_main_v10 (F := Ideal) x0 x1 = y
  generalize val_main_v17 (F := Ideal) x0 x1 = z
  exact join_lo y z _ e d

/-- The joined gathered rows at a column of the second half: the second end point's row. -/
theorem v18_hi (e : Fin 800000) (d : Fin 64) :
    val_main_v18 (F := Ideal) x0 x1 (ix2 e (Cert.Spec.hi d)) = val_main_v17 (F := Ideal) x0 x1 (ix2 e d) := by
  unfold val_main_v18
  generalize val_main_v10 (F := Ideal) x0 x1 = y
  generalize val_main_v17 (F := Ideal) x0 x1 = z
  exact join_hi y z _ e d

theorem lidx19 (e : Fin 800000) (k d : Fin 128) : lidx_main_v19 (ix2 e k) d = ix2 e d :=
  funext fun a => Fin.ext (by match a with | ⟨0, _⟩ => rfl | ⟨1, _⟩ => rfl)
theorem ridx19 (e : Fin 800000) (k d : Fin 128) : ridx_main_v19 (ix2 e k) d = ix2 d k :=
  funext fun a => Fin.ext (by match a with | ⟨0, _⟩ => rfl | ⟨1, _⟩ => rfl)
theorem idx21 (e : Fin 800000) (k : Fin 128) : idx_main_v20 (idx_main_v21 (ix2 e k)) = ix1 k :=
  funext fun a => Fin.ext (by match a with | ⟨0, _⟩ => rfl)
theorem lidx24 (e : Fin 800000) (j : Fin 64) (k : Fin 128) : lidx_main_v24 (ix2 e j) k = ix2 e k :=
  funext fun a => Fin.ext (by match a with | ⟨0, _⟩ => rfl | ⟨1, _⟩ => rfl)
theorem ridx24 (e : Fin 800000) (j : Fin 64) (k : Fin 128) : ridx_main_v24 (ix2 e j) k = ix2 k j :=
  funext fun a => Fin.ext (by match a with | ⟨0, _⟩ => rfl | ⟨1, _⟩ => rfl)
theorem idx26 (e : Fin 800000) (j : Fin 64) : idx_main_v25 (idx_main_v26 (ix2 e j)) = ix1 j :=
  funext fun a => Fin.ext (by match a with | ⟨0, _⟩ => rfl)

/-- The edge perceptron's hidden layer at edge `e`, unit `k`: the sum over the joined row of 128 split at 64 into
    the two end points' rows against the upper and the lower 64 rows of the first matrix, the bias added, rectified. -/
theorem hidden_edge (e : Fin 800000) (k : Fin 128) :
    val_main_v23 (F := Ideal) x0 x1 x2 x3 (ix2 e k)
      = max ((∑ d : Fin 64, val_main_v10 (F := Ideal) x0 x1 (ix2 e d) * x2 (ix2 (Cert.Spec.lo d) k))
            + (∑ d : Fin 64, val_main_v17 (F := Ideal) x0 x1 (ix2 e d) * x2 (ix2 (Cert.Spec.hi d) k))
            + x3 (ix1 k)) 0 := by
  rw [val_main_v23_apply, val_main_v22_apply, val_main_v19_apply, val_main_v21_apply, val_main_v20_apply,
    val_main_call0_v0_apply, val_main_call0_cst_apply, Ideal.maximumf_def, Ideal.addf_def, Ideal.ofBits_def,
    Ideal.ofBits_zero_f32, Cert.Spec.sum_split]
  simp only [lidx19, ridx19, v18_lo, v18_hi, idx21]

/-- The reference's messages: the edge perceptron, in the layer's own parameters, of the two gathered row arrays. -/
theorem edge_eq :
    val_main_v28 (F := Ideal) x0 x1 x2 x3 x4 x5
      = Cert.Spec.edgeRef (val_main_v10 (F := Ideal) x0 x1) (val_main_v17 (F := Ideal) x0 x1) x2 x3 x4 x5 := by
  funext i
  obtain ⟨e, j, rfl⟩ : ∃ (e : Fin 800000) (j : Fin 64), i = ix2 e j := ⟨i 0, i 1, eq_ix2 i⟩
  rw [val_main_v28_apply, val_main_v27_apply, val_main_v24_apply, val_main_v26_apply, val_main_v25_apply,
    val_main_call1_v0_apply, val_main_call1_cst_apply, Ideal.maximumf_def, Ideal.addf_def, Ideal.ofBits_def,
    Ideal.ofBits_zero_f32]
  simp only [lidx24, ridx24, hidden_edge, idx26]
  generalize val_main_v10 (F := Ideal) x0 x1 = y
  generalize val_main_v17 (F := Ideal) x0 x1 = z
  rfl

/-- The reference's summed messages: the scatter-add of the messages into a zero array at the first end points. -/
theorem scatter_eq :
    val_main_v31 (F := Ideal) x0 x1 x2 x3 x4 x5
      = Host.scatterAdd (F := Ideal) (φ := .f32) scatter_S50000x64_S800000x1_S800000x64_1_0_0_1 (val_main_v29 (F := Ideal))
          (val_main_v30 (F := Ideal) x1) (val_main_v28 (F := Ideal) x0 x1 x2 x3 x4 x5) := rfl

/-! ## The node perceptron -/

/-- The joined node rows and summed messages at a column of the first half: the node's own row. -/
theorem v32_lo (n : Fin 50000) (d : Fin 64) :
    val_main_v32 (F := Ideal) x0 x1 x2 x3 x4 x5 (ix2 n (Cert.Spec.lo d)) = x0 (ix2 n d) := by
  unfold val_main_v32
  generalize val_main_v31 (F := Ideal) x0 x1 x2 x3 x4 x5 = z
  exact join_lo x0 z _ n d

/-- The joined node rows and summed messages at a column of the second half: the summed messages' row. -/
theorem v32_hi (n : Fin 50000) (d : Fin 64) :
    val_main_v32 (F := Ideal) x0 x1 x2 x3 x4 x5 (ix2 n (Cert.Spec.hi d))
      = val_main_v31 (F := Ideal) x0 x1 x2 x3 x4 x5 (ix2 n d) := by
  unfold val_main_v32
  generalize val_main_v31 (F := Ideal) x0 x1 x2 x3 x4 x5 = z
  exact join_hi x0 z _ n d

theorem lidx33 (n : Fin 50000) (k d : Fin 128) : lidx_main_v33 (ix2 n k) d = ix2 n d :=
  funext fun a => Fin.ext (by match a with | ⟨0, _⟩ => rfl | ⟨1, _⟩ => rfl)
theorem ridx33 (n : Fin 50000) (k d : Fin 128) : ridx_main_v33 (ix2 n k) d = ix2 d k :=
  funext fun a => Fin.ext (by match a with | ⟨0, _⟩ => rfl | ⟨1, _⟩ => rfl)
theorem idx35 (n : Fin 50000) (k : Fin 128) : idx_main_v34 (idx_main_v35 (ix2 n k)) = ix1 k :=
  funext fun a => Fin.ext (by match a with | ⟨0, _⟩ => rfl)
theorem lidx38 (n : Fin 50000) (j : Fin 64) (k : Fin 128) : lidx_main_v38 (ix2 n j) k = ix2 n k :=
  funext fun a => Fin.ext (by match a with | ⟨0, _⟩ => rfl | ⟨1, _⟩ => rfl)
theorem ridx38 (n : Fin 50000) (j : Fin 64) (k : Fin 128) : ridx_main_v38 (ix2 n j) k = ix2 k j :=
  funext fun a => Fin.ext (by match a with | ⟨0, _⟩ => rfl | ⟨1, _⟩ => rfl)
theorem idx40 (n : Fin 50000) (j : Fin 64) : idx_main_v39 (idx_main_v40 (ix2 n j)) = ix1 j :=
  funext fun a => Fin.ext (by match a with | ⟨0, _⟩ => rfl)

/-- The node perceptron's hidden layer at node `n`, unit `k`: the sum over the joined row of 128 split at 64 into
    the node's own row and its summed messages against the upper and the lower 64 rows of the first matrix, the bias
    added, rectified. -/
theorem hidden_node (n : Fin 50000) (k : Fin 128) :
    val_main_v37 (F := Ideal) x0 x1 x2 x3 x4 x5 x6 x7 (ix2 n k)
      = max ((∑ d : Fin 64, x0 (ix2 n d) * x6 (ix2 (Cert.Spec.lo d) k))
            + (∑ d : Fin 64, val_main_v31 (F := Ideal) x0 x1 x2 x3 x4 x5 (ix2 n d) * x6 (ix2 (Cert.Spec.hi d) k))
            + x7 (ix1 k)) 0 := by
  rw [val_main_v37_apply, val_main_v36_apply, val_main_v33_apply, val_main_v35_apply, val_main_v34_apply,
    val_main_call2_v0_apply, val_main_call2_cst_apply, Ideal.maximumf_def, Ideal.addf_def, Ideal.ofBits_def,
    Ideal.ofBits_zero_f32, Cert.Spec.sum_split]
  simp only [lidx33, ridx33, v32_lo, v32_hi, idx35]

/-- The reference's result: the node perceptron, in the layer's own parameters, of the node rows and the summed
    messages, added to the node rows. -/
theorem node_eq :
    val_main_v42 (F := Ideal) x0 x1 x2 x3 x4 x5 x6 x7 x8 x9
      = Cert.Spec.nodeRef x0 (val_main_v31 (F := Ideal) x0 x1 x2 x3 x4 x5) x6 x7 x8 x9 := by
  funext i
  obtain ⟨n, j, rfl⟩ : ∃ (n : Fin 50000) (j : Fin 64), i = ix2 n j := ⟨i 0, i 1, eq_ix2 i⟩
  rw [val_main_v42_apply, val_main_v41_apply, val_main_v38_apply, val_main_v40_apply, val_main_v39_apply]
  simp only [Ideal.addf_def, lidx38, ridx38, hidden_node, idx40]
  generalize val_main_v31 (F := Ideal) x0 x1 x2 x3 x4 x5 = z
  rfl

end Cert.ReferenceIdeal.RefValue

end
-- ==== Proof.Bridge.lean ====
/-
  The two programs compute one function of the launch arrays.

  `layer` is the message-passing layer as ONE term of the ten argument arrays: the node perceptron, in the layer's own
  parameters, of the node rows and of the messages summed at each edge's first end point, the messages being the edge
  perceptron of the node rows gathered at each edge's two end points.

  The kernel's result array is what its second pipeline's write-backs leave: the node perceptron of that pipeline's
  operands, which are the launch arrays cut and reshaped and the first pipeline's output summed at the first end
  points; the first pipeline's output is the edge perceptron of ITS operands, the two row takes of the node rows.
  A row take is the plain gather where every index is a node index, which the precondition says. So the kernel's
  result is `layer` of the launch arrays (`kernel_value`).

  The reference's result stage is `layer` of its arguments by reading its stages (`reference_value`): its gathers
  and its scatter-add are the same operations on the same index columns as the kernel's.
-/
import proofs.«415306_j68195490726191_1_alg».proof.Defs
import proofs.«415306_j68195490726191_1_alg».proof.Proof.KernelRun
import proofs.«415306_j68195490726191_1_alg».proof.Proof.EdgeRegion
import proofs.«415306_j68195490726191_1_alg».proof.Proof.NodeRegion
import proofs.«415306_j68195490726191_1_alg».proof.Proof.Operands
import proofs.«415306_j68195490726191_1_alg».proof.Proof.Take
import proofs.«415306_j68195490726191_1_alg».proof.Proof.RefValue
import proofs.«415306_j68195490726191_1_alg».proof.Proof.Gen.ReferenceIdeal.Read

set_option maxRecDepth 16384

noncomputable section

namespace Cert.Proof.Bridge

open Idealize.ShloMosaic Idealize.ShloMosaic.TcCoe Idealize.SL.Sem Idealize.ShloMosaic.ValueIdx

section Kernel

open Cert.KernelIdeal Cert.KernelIdeal.Gen Cert.KernelIdeal.Take Cert.KernelIdeal.Operands

/-- The layer as one function of its ten argument arrays. -/
def layer (h : FVec Ideal S50000x64 .f32) (ei : IVec S2x800000 32) (eW1 : FVec Ideal S128x128 .f32) (eb1 : FVec Ideal S128 .f32)
    (eW2 : FVec Ideal S128x64 .f32) (eb2 : FVec Ideal S64 .f32) (nW1 : FVec Ideal S128x128 .f32) (nb1 : FVec Ideal S128 .f32)
    (nW2 : FVec Ideal S128x64 .f32) (nb2 : FVec Ideal S64 .f32) : FVec Ideal S50000x64 .f32 :=
  Cert.Spec.nodeRef h
    (summed ei (Cert.Spec.edgeRef (rows (F := Ideal) h (row0 ei)) (rows (F := Ideal) h (row1 ei)) eW1 eb1 eW2 eb2))
    nW1 nb1 nW2 nb2

variable (m : (ℓ : Loc nD τ sig) → Buf (Elt Ideal) ℓ) (ρ : Dev nD → PrngReg)

/-- The first pipeline's output array, as the second pipeline finds it, is the edge perceptron of the node rows
    gathered at the edge list's two rows — the takes being plain gathers where every index is a node index. -/
theorem edge_value (c : Dev nD)
    (hr : ∀ i : S2x800000.Idx, 0 ≤ (m ((c : Thread nD τ).loc main_arg1) i).toInt ∧ (m ((c : Thread nD τ).loc main_arg1) i).toInt < 50000) :
    V6 m ρ c main_v15
      = Cert.Spec.edgeRef (rows (F := Ideal) (m ((c : Thread nD τ).loc main_arg0)) (row0 (m ((c : Thread nD τ).loc main_arg1))))
          (rows (F := Ideal) (m ((c : Thread nD τ).loc main_arg0)) (row1 (m ((c : Thread nD τ).loc main_arg1))))
          (m ((c : Thread nD τ).loc main_arg2)) (m ((c : Thread nD τ).loc main_arg3))
          (m ((c : Thread nD τ).loc main_arg4)) (m ((c : Thread nD τ).loc main_arg5)) := by
  have h0 : take (F := Ideal) (m ((c : Thread nD τ).loc main_arg0)) (row0 (m ((c : Thread nD τ).loc main_arg1)))
      = rows (F := Ideal) (m ((c : Thread nD τ).loc main_arg0)) (row0 (m ((c : Thread nD τ).loc main_arg1))) :=
    take_eq_rows _ _ fun e => by rw [row0_apply]; exact hr _
  have h1 : take (F := Ideal) (m ((c : Thread nD τ).loc main_arg0)) (row1 (m ((c : Thread nD τ).loc main_arg1)))
      = rows (F := Ideal) (m ((c : Thread nD τ).loc main_arg0)) (row1 (m ((c : Thread nD τ).loc main_arg1))) :=
    take_eq_rows _ _ fun e => by rw [row1_apply]; exact hr _
  refine (W6_edge m ρ c).trans ((Cert.KernelIdeal.EdgeRegion.final (V5 m ρ) c).trans ((edge_operands m ρ c).trans ?_))
  rw [h0, h1]

/-- THE KERNEL'S RESULT ARRAY is the layer of the launch arrays. -/
theorem kernel_value (c : Dev nD)
    (hr : ∀ i : S2x800000.Idx, 0 ≤ (m ((c : Thread nD τ).loc main_arg1) i).toInt ∧ (m ((c : Thread nD τ).loc main_arg1) i).toInt < 50000) :
    W8 m ρ c (Proc.devRef .tc main_v26)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (W8_result m ρ c).trans ((Cert.KernelIdeal.NodeRegion.final (V7 m ρ) c).trans ((node_operands m ρ c).trans ?_))
  rw [edge_value m ρ c hr]
  rfl

end Kernel

section Reference

open Cert.ReferenceIdeal Cert.ReferenceIdeal.Gen Cert.ReferenceIdeal.Read

/-- THE REFERENCE'S RESULT STAGE is the layer of its arguments: its two gathers are the rows the same start-index
    columns name, its scatter-add sums at the same rows of a zero array. -/
theorem reference_value (x0 : (⟨S50000x64, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal)) :
    val_main_v42 (F := Ideal) x0 x1 x2 x3 x4 x5 x6 x7 x8 x9 = layer x0 x1 x2 x3 x4 x5 x6 x7 x8 x9 := by
  rw [Cert.ReferenceIdeal.RefValue.node_eq, Cert.ReferenceIdeal.RefValue.scatter_eq, Cert.ReferenceIdeal.RefValue.edge_eq]
  rfl

end Reference

end Cert.Proof.Bridge

end
-- ==== Proof.lean ====
/-
  One message-passing layer on a graph: the kernel and the reference compute the same node features.

  Node features `h` (50000 x 64) and an edge list (2 x 800000). Per edge the two end points' rows of `h` are gathered;
  an edge perceptron (128 -> 128 -> 64, a rectifier after each layer) of the joined pair is the edge's message; the
  messages are summed into their first end point's row; a node perceptron (128 -> 128 -> 64, a rectifier after the
  first layer) of each node's row joined with its summed messages is added to the node's row.

  The kernel runs the two perceptrons as two pipelines over row blocks (6400 edges, 5000 nodes at a grid point) with
  the first-layer matrix cut into its upper and lower 64 rows, so that the product of a joined row with the matrix is
  the sum of two products; the reference multiplies the joined row by the whole matrix. At the ideal instance the two
  agree by splitting a sum over 128 indices at 64 — a regrouping of a finite sum, which needs no finiteness. The
  kernel's row take fills rows whose index is out of range with a fill value where the reference's indexing clamps the
  index; the two agree exactly where every entry of the edge list is a node index, `0 ≤ · < 50000`, which the
  precondition states (the reference itself indexes `h` out of range elsewhere). Changes of float format are the
  identity at the ideal instance, and the idealization rewrote no operation, so `preserves` has nothing to state.

  Modules: Spec (the perceptron as a function of index types, the split of the sum), EdgeRegion and NodeRegion (each
  pipeline's output array as the perceptron of its operand arrays, from the blocks its grid points write back), Take
  (the row take is the gather where the indices are node indices; the precondition decoded), Operands (the pipelines'
  operand arrays read back through the host operations to the launch arrays), RefValue (the reference's stages read
  at an index), KernelRun (the run with the result array named), Bridge (both results are one function `layer` of the
  launch arrays).
-/
import proofs.«415306_j68195490726191_1_alg».proof.Defs
import proofs.«415306_j68195490726191_1_alg».proof.Proof.Gen.Kernel
import proofs.«415306_j68195490726191_1_alg».proof.Proof.Gen.Kernel.Skeleton
import proofs.«415306_j68195490726191_1_alg».proof.Proof.Gen.Kernel.Launch
import proofs.«415306_j68195490726191_1_alg».proof.Proof.Gen.Kernel.Points
import proofs.«415306_j68195490726191_1_alg».proof.Proof.Gen.Kernel.Frame
import proofs.«415306_j68195490726191_1_alg».proof.Proof.Gen.KernelIdeal
import proofs.«415306_j68195490726191_1_alg».proof.Proof.Gen.KernelIdeal.Skeleton
import proofs.«415306_j68195490726191_1_alg».proof.Proof.Gen.KernelIdeal.Launch
import proofs.«415306_j68195490726191_1_alg».proof.Proof.Gen.KernelIdeal.Points
import proofs.«415306_j68195490726191_1_alg».proof.Proof.Gen.KernelIdeal.Frame
import proofs.«415306_j68195490726191_1_alg».proof.Proof.Gen.ReferenceIdeal
import proofs.«415306_j68195490726191_1_alg».proof.Proof.Gen.ReferenceIdeal.Run
import proofs.«415306_j68195490726191_1_alg».proof.Proof.Gen.ReferenceIdeal.Read
import proofs.«415306_j68195490726191_1_alg».proof.Proof.Gen.Pre_finite_inputs
import proofs.«415306_j68195490726191_1_alg».proof.Proof.KernelRun
import proofs.«415306_j68195490726191_1_alg».proof.Proof.Take
import proofs.«415306_j68195490726191_1_alg».proof.Proof.Bridge
import Idealize.ShloMosaic.Adequacy
import Idealize.ShloMosaic.Init

noncomputable section

namespace Cert.Proof

open Idealize.ShloMosaic Idealize.SL.Sem

/-- The word-level kernel runs and keeps its arguments: its generated frame. -/
theorem frame_kernel : Cert.frame_Kernel := fun m ρ _ => Cert.Kernel.Gen.frame m ρ

/-- The idealized kernel runs and keeps its arguments: its generated frame. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the layer of the launch arrays in their result array: the kernel by its run with
    the result named and `Bridge.kernel_value` (the precondition giving that every entry of the edge list is a node
    index), the reference by its run and `Bridge.reference_value`, its arguments being the kernel's. -/
theorem algebraic : Cert.algebraic_KernelIdeal_ReferenceIdeal := by
  intro m ρ m' ρ' hpre hagree
  refine ⟨fun c => Bridge.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Gen.run_result (F := Ideal) m ρ)
    obtain ⟨hres, hargs⟩ := h c
    exact ⟨hres.trans (Bridge.kernel_value m ρ c
      (Cert.KernelIdeal.Take.index_range _ _ _ _ _ _ _ _ _ _ (hpre c))), hargs⟩
  · refine (θ_run Cert.ReferenceIdeal.defs _ _).mono (fun r h c => ?_) (Cert.ReferenceIdeal.Value.run (F := Ideal) m' ρ')
    obtain ⟨hres, hargs⟩ := h c
    refine ⟨?_, hargs⟩
    rw [hres, Cert.ReferenceIdeal.Read.val_main_v42_eq, Bridge.reference_value,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
